-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x49x512 : Shape := ⟨3, ![2048, 49, 512]⟩
abbrev S169x16 : Shape := ⟨2, ![169, 16]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S49x49 : Shape := ⟨2, ![49, 49]⟩
abbrev S_ : Shape := ⟨0, ![]⟩

class Facts : Prop where
  bcast_S_S2048x49x512 : S_.BroadcastsInDim S2048x49x512 (![] : Fin 0 → Fin S2048x49x512.rank)
  reducesTo_S2048x49x512_S_d0_1_2 : S2048x49x512.ReducesTo [0, 1, 2] S_
  h_S_ : 0 < S_.numel
  bcast_S_S169x16 : S_.BroadcastsInDim S169x16 (![] : Fin 0 → Fin S169x16.rank)
  reducesTo_S169x16_S_d0_1 : S169x16.ReducesTo [0, 1] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S2048x49x512 .f32) (main_arg1 : FVec F S169x16 .f32) (main_arg2 : FVec F S1536x512 .f32) (main_arg3 : FVec F S1536 .f32) (main_arg4 : FVec F S512x512 .f32) (main_arg5 : FVec F S512 .f32) (main_arg6 : IVec S49x49 32) : IVec S_ 1 :=
  let main_v0 : FVec F S2048x49x512 .f32 := Host.absf main_arg0
  let main_cst : FVec F S_ .f32 := constant S_ .f32 0x7F800000#32
  let main_v1 : FVec F S2048x49x512 .f32 := broadcastInDim S2048x49x512 ![] bcast_S_S2048x49x512 main_cst
  let main_v2 : IVec S2048x49x512 1 := cmpf .olt main_v0 main_v1
  let main_c : IVec S_ 1 := constantI S_ 1 1#1
  let main_v3 : IVec S_ 1 := (fun x v => Host.reduce IntOp.andi x v reducesTo_S2048x49x512_S_d0_1_2 h_S_) main_v2 main_c
  let main_v4 : FVec F S169x16 .f32 := Host.absf main_arg1
  let main_cst_0 : FVec F S_ .f32 := constant S_ .f32 0x7F800000#32
  let main_v5 : FVec F S169x16 .f32 := broadcastInDim S169x16 ![] bcast_S_S169x16 main_cst_0
  let main_v6 : IVec S169x16 1 := cmpf .olt main_v4 main_v5
  let main_c_1 : IVec S_ 1 := constantI S_ 1 1#1
  let main_v7 : IVec S_ 1 := (fun x v => Host.reduce IntOp.andi x v reducesTo_S169x16_S_d0_1 h_S_) main_v6 main_c_1
  let main_v8 : IVec S_ 1 := andi main_v3 main_v7
  let main_v9 : FVec F S1536x512 .f32 := Host.absf main_arg2
  let main_cst_2 : FVec F S_ .f32 := constant S_ .f32 0x7F800000#32
  let main_v10 : FVec F S1536x512 .f32 := broadcastInDim S1536x512 ![] bcast_S_S1536x512 main_cst_2
  let main_v11 : IVec S1536x512 1 := cmpf .olt main_v9 main_v10
  let main_c_3 : IVec S_ 1 := constantI S_ 1 1#1
  let main_v12 : IVec S_ 1 := (fun x v => Host.reduce IntOp.andi x v reducesTo_S1536x512_S_d0_1 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg4 main_arg5 main_v13 main_v16
-- ==== Kernel.lean ====
abbrev S2048x49x512 : Shape := ⟨3, ![2048, 49, 512]⟩
abbrev S169x16 : Shape := ⟨2, ![169, 16]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S49x49 : Shape := ⟨2, ![49, 49]⟩
abbrev S_ : Shape := ⟨0, ![]⟩
abbrev S49x49x1 : Shape := ⟨3, ![49, 49, 1]⟩
abbrev S49x49x16 : Shape := ⟨3, ![49, 49, 16]⟩
abbrev S16x49x49 : Shape := ⟨3, ![16, 49, 49]⟩
abbrev S8x49x512 : Shape := ⟨3, ![8, 49, 512]⟩
abbrev S392x512 : Shape := ⟨2, ![392, 512]⟩
abbrev S512x1536 : Shape := ⟨2, ![512, 1536]⟩
abbrev S392x1536 : Shape := ⟨2, ![392, 1536]⟩
abbrev S1x1536 : Shape := ⟨2, ![1, 1536]⟩
abbrev S8x49x3x16x32 : Shape := ⟨5, ![8, 49, 3, 16, 32]⟩
abbrev S8x49x1x16x32 : Shape := ⟨5, ![8, 49, 1, 16, 32]⟩
abbrev S8x49x16x32 : Shape := ⟨4, ![8, 49, 16, 32]⟩
abbrev S8x16x49x32 : Shape := ⟨4, ![8, 16, 49, 32]⟩
abbrev S128x49x32 : Shape := ⟨3, ![128, 49, 32]⟩
abbrev S128x49x49 : Shape := ⟨3, ![128, 49, 49]⟩
abbrev S1x16x49x49 : Shape := ⟨4, ![1, 16, 49, 49]⟩
abbrev S8x16x49x49 : Shape := ⟨4, ![8, 16, 49, 49]⟩
abbrev S128x49 : Shape := ⟨2, ![128, 49]⟩
abbrev S128x49x1 : Shape := ⟨3, ![128, 49, 1]⟩
abbrev S1x512 : Shape := ⟨2, ![1, 512]⟩

abbrev nBuf : Space → Nat
  | .hbm => 18
  | .vmem => 9
  | .smem => 0
  | _ => 0

abbrev bufTy : (tb : Table) → Fin (tcTables nBuf tb) → BufTy
  | .hbm, ⟨0, _⟩ => ⟨S2048x49x512, .f32⟩
  | .hbm, ⟨1, _⟩ => ⟨S169x16, .f32⟩
  | .hbm, ⟨2, _⟩ => ⟨S1536x512, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S49x49, .i32⟩
  | .hbm, ⟨7, _⟩ => ⟨S_, .i32⟩
  | .hbm, ⟨8, _⟩ => ⟨S49x49, .i32⟩
  | .hbm, ⟨9, _⟩ => ⟨S49x49, .i1⟩
  | .hbm, ⟨10, _⟩ => ⟨S_, .i32⟩
  | .hbm, ⟨11, _⟩ => ⟨S49x49, .i32⟩
  | .hbm, ⟨12, _⟩ => ⟨S49x49, .i32⟩
  | .hbm, ⟨13, _⟩ => ⟨S49x49, .i32⟩
  | .hbm, ⟨14, _⟩ => ⟨S49x49x1, .i32⟩
  | .hbm, ⟨15, _⟩ => ⟨S49x49x16, .f32⟩
  | .hbm, ⟨16, _⟩ => ⟨S16x49x49, .f32⟩
  | .hbm, ⟨17, _⟩ => ⟨S2048x49x512, .f32⟩
  | .local _ .vmem, ⟨0, _⟩ => ⟨S8x49x512, .f32⟩
  | .local _ .vmem, ⟨1, _⟩ => ⟨S8x49x512, .f32⟩
  | .local _ .vmem, ⟨2, _⟩ => ⟨S1536x512, .f32⟩
  | .local _ .vmem, ⟨3, _⟩ => ⟨S1536, .f32⟩
  | .local _ .vmem, ⟨4, _⟩ => ⟨S512x512, .f32⟩
  | .local _ .vmem, ⟨5, _⟩ => ⟨S512, .f32⟩
  | .local _ .vmem, ⟨6, _⟩ => ⟨S16x49x49, .f32⟩
  | .local _ .vmem, ⟨7, _⟩ => ⟨S8x49x512, .f32⟩
  | .local _ .vmem, ⟨8, _⟩ => ⟨S8x49x512, .f32⟩
  | _, _ => ⟨S2048x49x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x49x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x49x49 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x49x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S49x49 : S_.BroadcastsInDim S49x49 (![] : Fin 0 → Fin S49x49.rank)
  bcast_S49x49_S49x49x1_0_1 : S49x49.BroadcastsInDim S49x49x1 (![0, 1] : Fin 2 → Fin S49x49x1.rank)
  transposes_S49x49x16_S16x49x49_2_0_1 : S49x49x16.Transposes [2, 0, 1] S16x49x49
  inb_S8x49x512_S8x49x512_0_0_0 : ∀ a, (![0, 0, 0] : Fin 3 → Nat) a + S8x49x512.size a ≤ S8x49x512.size a
  h_S8x49x512 : 0 < S8x49x512.numel
  bitsLt_bf16_f32 : FTy.bits .bf16 < FTy.bits .f32
  shapeCasts_S8x49x512_S392x512 : S8x49x512.ShapeCasts S392x512
  inb_S1536x512_S1536x512_0_0 : ∀ a, (![0, 0] : Fin 2 → Nat) a + S1536x512.size a ≤ S1536x512.size a
  h_S1536x512 : 0 < S1536x512.numel
  transposes_S1536x512_p1_0_S512x1536 : S1536x512.Transposes [1, 0] S512x1536
  inb_S1536_S1536_0 : ∀ a, (![0] : Fin 1 → Nat) a + S1536.size a ≤ S1536.size a
  h_S1536 : 0 < S1536.numel
  shapeCasts_S1536_S1x1536 : S1536.ShapeCasts S1x1536
  broadcasts_S1x1536_S392x1536 : S1x1536.Broadcasts S392x1536
  shapeCasts_S392x1536_S8x49x3x16x32 : S392x1536.ShapeCasts S8x49x3x16x32
  slices_S8x49x3x16x32_o0_0_0_0_0_S8x49x1x16x32 : S8x49x3x16x32.Slices ![0, 0, 0, 0, 0] S8x49x1x16x32
  shapeCasts_S8x49x1x16x32_S8x49x16x32 : S8x49x1x16x32.ShapeCasts S8x49x16x32
  slices_S8x49x3x16x32_o0_0_1_0_0_S8x49x1x16x32 : S8x49x3x16x32.Slices ![0, 0, 1, 0, 0] S8x49x1x16x32
  slices_S8x49x3x16x32_o0_0_2_0_0_S8x49x1x16x32 : S8x49x3x16x32.Slices ![0, 0, 2, 0, 0] S8x49x1x16x32
  transposes_S8x49x16x32_p0_2_1_3_S8x16x49x32 : S8x49x16x32.Transposes [0, 2, 1, 3] S8x16x49x32
  shapeCasts_S8x16x49x32_S128x49x32 : S8x16x49x32.ShapeCasts S128x49x32
  inb_S16x49x49_S16x49x49_0_0_0 : ∀ a, (![0, 0, 0] : Fin 3 → Nat) a + S16x49x49.size a ≤ S16x49x49.size a
  h_S16x49x49 : 0 < S16x49x49.numel
  shapeCasts_S16x49x49_S16x49x49 : S16x49x49.ShapeCasts S16x49x49
  shapeCasts_S16x49x49_S1x16x49x49 : S16x49x49.ShapeCasts S1x16x49x49
  shapeCasts_S1x16x49x49_S1x16x49x49 : S1x16x49x49.ShapeCasts S1x16x49x49
  broadcasts_S1x16x49x49_S8x16x49x49 : S1x16x49x49.Broadcasts S8x16x49x49
  shapeCasts_S8x16x49x49_S128x49x49 : S8x16x49x49.ShapeCasts S128x49x49
  reduces_S128x49x49_S128x49 : S128x49x49.Reduces [2] S128x49
  shapeCasts_S128x49_S128x49x1 : S128x49.ShapeCasts S128x49x1
  broadcasts_S128x49x1_S128x49x49 : S128x49x1.Broadcasts S128x49x49
  shapeCasts_S128x49x32_S8x16x49x32 : S128x49x32.ShapeCasts S8x16x49x32
  transposes_S8x16x49x32_p0_2_1_3_S8x49x16x32 : S8x16x49x32.Transposes [0, 2, 1, 3] S8x49x16x32
  shapeCasts_S8x49x16x32_S392x512 : S8x49x16x32.ShapeCasts S392x512
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S512_S512_0 : ∀ a, (![0] : Fin 1 → Nat) a + S512.size a ≤ S512.size a
  h_S512 : 0 < S512.numel
  shapeCasts_S512_S1x512 : S512.ShapeCasts S1x512
  broadcasts_S1x512_S392x512 : S1x512.Broadcasts S392x512
  shapeCasts_S392x512_S8x49x512 : S392x512.ShapeCasts S8x49x512
  gather_S169x16_S49x49x1_S49x49x16_2_0_n_n_0_2_116_wf : GatherDims.WF S169x16 S49x49x1 S49x49x16 [2] [0] [] [0] [] 2 ![1, 16]
  dot_S392x512_S512x1536_S392x1536_1_0_0_1_n_n_wf : DotDims.WF S392x512 S512x1536 S392x1536 [1] [0] [0] [1] [] []
  dot_S128x49x32_S128x49x32_S128x49x49_2_2_1_1_0_0_wf : DotDims.WF S128x49x32 S128x49x32 S128x49x49 [2] [2] [1] [1] [0] [0]
  dot_S128x49x49_S128x49x32_S128x49x32_2_1_1_2_0_0_wf : DotDims.WF S128x49x49 S128x49x32 S128x49x32 [2] [1] [1] [2] [0] [0]
  dot_S392x512_S512x512_S392x512_1_0_0_1_n_n_wf : DotDims.WF S392x512 S512x512 S392x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x49x512.size a ≤ S2048x49x512.size a
  hwx0_0 : ∀ i : grid0.Coords, EltTy.bits .f32 = 32 ∨ (Rect.block (s := S2048x49x512) S8x49x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .f32 = 32 ∨ (Rect.block (s := S1536x512) S1536x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x49x49.size a ≤ S16x49x49.size a
  hwx0_5 : ∀ i : grid0.Coords, EltTy.bits .f32 = 32 ∨ (Rect.block (s := S16x49x49) S16x49x49.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x49x512.size a ≤ S2048x49x512.size a
  hwx0_6 : ∀ i : grid0.Coords, EltTy.bits .f32 = 32 ∨ (Rect.block (s := S2048x49x512) S8x49x512.size (cc0_transform_6 i) (hinb0_6 i)).WholeWords (EltTy.packing .f32)

variable [Facts₀]

def gather_S169x16_S49x49x1_S49x49x16_2_0_n_n_0_2_116 : GatherDims S169x16 S49x49x1 S49x49x16 where
  offsetDims := [2]
  collapsedSliceDims := [0]
  operandBatchingDims := []
  startIndicesBatchingDims := []
  startIndexMap := [0]
  indexVectorDim := 2
  sliceSizes := ![1, 16]
  wf := gather_S169x16_S49x49x1_S49x49x16_2_0_n_n_0_2_116_wf
def dot_S392x512_S512x1536_S392x1536_1_0_0_1_n_n : DotDims S392x512 S512x1536 S392x1536 where
  lhsContracting := [1]
  rhsContracting := [0]
  lhsNonContracting := [0]
  rhsNonContracting := [1]
  lhsBatch := []
  rhsBatch := []
  wf := dot_S392x512_S512x1536_S392x1536_1_0_0_1_n_n_wf
def dot_S128x49x32_S128x49x32_S128x49x49_2_2_1_1_0_0 : DotDims S128x49x32 S128x49x32 S128x49x49 where
  lhsContracting := [2]
  rhsContracting := [2]
  lhsNonContracting := [1]
  rhsNonContracting := [1]
  lhsBatch := [0]
  rhsBatch := [0]
  wf := dot_S128x49x32_S128x49x32_S128x49x49_2_2_1_1_0_0_wf
def dot_S128x49x49_S128x49x32_S128x49x32_2_1_1_2_0_0 : DotDims S128x49x49 S128x49x32 S128x49x32 where
  lhsContracting := [2]
  rhsContracting := [1]
  lhsNonContracting := [1]
  rhsNonContracting := [2]
  lhsBatch := [0]
  rhsBatch := [0]
  wf := dot_S128x49x49_S128x49x32_S128x49x32_2_1_1_2_0_0_wf
def dot_S392x512_S512x512_S392x512_1_0_0_1_n_n : DotDims S392x512 S512x512 S392x512 where
  lhsContracting := [1]
  rhsContracting := [0]
  lhsNonContracting := [0]
  rhsNonContracting := [1]
  lhsBatch := []
  rhsBatch := []
  wf := dot_S392x512_S512x512_S392x512_1_0_0_1_n_n_wf

abbrev win0_0 : Pipeline.Window sig grid0 :=
  Pipeline.Window.ofSpec (Memref.whole main_arg0) S8x49x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S16x49x49.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S8x49x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x49x512 : Shape := ⟨3, ![2048, 49, 512]⟩
abbrev S169x16 : Shape := ⟨2, ![169, 16]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S49x49 : Shape := ⟨2, ![49, 49]⟩
abbrev S2048x49x1536 : Shape := ⟨3, ![2048, 49, 1536]⟩
abbrev S1x1x1536 : Shape := ⟨3, ![1, 1, 1536]⟩
abbrev S2048x49x3x16x32 : Shape := ⟨5, ![2048, 49, 3, 16, 32]⟩
abbrev S3x2048x16x49x32 : Shape := ⟨5, ![3, 2048, 16, 49, 32]⟩
abbrev S1x2048x16x49x32 : Shape := ⟨5, ![1, 2048, 16, 49, 32]⟩
abbrev S2048x16x49x32 : Shape := ⟨4, ![2048, 16, 49, 32]⟩
abbrev S_ : Shape := ⟨0, ![]⟩
abbrev S49x49x1 : Shape := ⟨3, ![49, 49, 1]⟩
abbrev S49x49x16 : Shape := ⟨3, ![49, 49, 16]⟩
abbrev S16x49x49 : Shape := ⟨3, ![16, 49, 49]⟩
abbrev S1x16x49x49 : Shape := ⟨4, ![1, 16, 49, 49]⟩
abbrev S2048x16x49x49 : Shape := ⟨4, ![2048, 16, 49, 49]⟩
abbrev S2048x16x49 : Shape := ⟨3, ![2048, 16, 49]⟩
abbrev S2048x16x49x1 : Shape := ⟨4, ![2048, 16, 49, 1]⟩
abbrev S2048x49x16x32 : Shape := ⟨4, ![2048, 49, 16, 32]⟩
abbrev S1x1x512 : Shape := ⟨3, ![1, 1, 512]⟩

abbrev nBuf : Space → Nat
  | .hbm => 57
  | .vmem => 0
  | .smem => 0
  | _ => 0

abbrev bufTy : (tb : Table) → Fin (tcTables nBuf tb) → BufTy
  | .hbm, ⟨0, _⟩ => ⟨S2048x49x512, .f32⟩
  | .hbm, ⟨1, _⟩ => ⟨S169x16, .f32⟩
  | .hbm, ⟨2, _⟩ => ⟨S1536x512, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S49x49, .i32⟩
  | .hbm, ⟨7, _⟩ => ⟨S2048x49x1536, .f32⟩
  | .hbm, ⟨8, _⟩ => ⟨S1x1x1536, .f32⟩
  | .hbm, ⟨9, _⟩ => ⟨S2048x49x1536, .f32⟩
  | .hbm, ⟨10, _⟩ => ⟨S2048x49x1536, .f32⟩
  | .hbm, ⟨11, _⟩ => ⟨S2048x49x3x16x32, .f32⟩
  | .hbm, ⟨12, _⟩ => ⟨S3x2048x16x49x32, .f32⟩
  | .hbm, ⟨13, _⟩ => ⟨S1x2048x16x49x32, .f32⟩
  | .hbm, ⟨14, _⟩ => ⟨S2048x16x49x32, .f32⟩
  | .hbm, ⟨15, _⟩ => ⟨S1x2048x16x49x32, .f32⟩
  | .hbm, ⟨16, _⟩ => ⟨S2048x16x49x32, .f32⟩
  | .hbm, ⟨17, _⟩ => ⟨S1x2048x16x49x32, .f32⟩
  | .hbm, ⟨18, _⟩ => ⟨S2048x16x49x32, .f32⟩
  | .hbm, ⟨19, _⟩ => ⟨S_, .i32⟩
  | .hbm, ⟨20, _⟩ => ⟨S49x49, .i32⟩
  | .hbm, ⟨21, _⟩ => ⟨S49x49, .i1⟩
  | .hbm, ⟨22, _⟩ => ⟨S_, .i32⟩
  | .hbm, ⟨23, _⟩ => ⟨S49x49, .i32⟩
  | .hbm, ⟨24, _⟩ => ⟨S49x49, .i32⟩
  | .hbm, ⟨25, _⟩ => ⟨S49x49, .i32⟩
  | .hbm, ⟨26, _⟩ => ⟨S49x49x1, .i32⟩
  | .hbm, ⟨27, _⟩ => ⟨S49x49x16, .f32⟩
  | .hbm, ⟨28, _⟩ => ⟨S16x49x49, .f32⟩
  | .hbm, ⟨29, _⟩ => ⟨S1x16x49x49, .f32⟩
  | .hbm, ⟨30, _⟩ => ⟨S_, .f32⟩
  | .hbm, ⟨31, _⟩ => ⟨S2048x16x49x32, .f32⟩
  | .hbm, ⟨32, _⟩ => ⟨S2048x16x49x32, .f32⟩
  | .hbm, ⟨33, _⟩ => ⟨S2048x16x49x49, .f32⟩
  | .hbm, ⟨34, _⟩ => ⟨S2048x16x49x49, .f32⟩
  | .hbm, ⟨35, _⟩ => ⟨S2048x16x49x49, .f32⟩
  | .hbm, ⟨36, _⟩ => ⟨S_, .f32⟩
  | .hbm, ⟨37, _⟩ => ⟨S2048x16x49, .f32⟩
  | .hbm, ⟨38, _⟩ => ⟨S_, .f32⟩
  | .hbm, ⟨39, _⟩ => ⟨S2048x16x49, .f32⟩
  | .hbm, ⟨40, _⟩ => ⟨S2048x16x49, .f32⟩
  | .hbm, ⟨41, _⟩ => ⟨S2048x16x49x1, .f32⟩
  | .hbm, ⟨42, _⟩ => ⟨S2048x16x49x49, .f32⟩
  | .hbm, ⟨43, _⟩ => ⟨S2048x16x49x49, .f32⟩
  | .hbm, ⟨44, _⟩ => ⟨S2048x16x49x49, .f32⟩
  | .hbm, ⟨45, _⟩ => ⟨S_, .f32⟩
  | .hbm, ⟨46, _⟩ => ⟨S2048x16x49, .f32⟩
  | .hbm, ⟨47, _⟩ => ⟨S2048x16x49x1, .f32⟩
  | .hbm, ⟨48, _⟩ => ⟨S2048x16x49x49, .f32⟩
  | .hbm, ⟨49, _⟩ => ⟨S2048x16x49x49, .f32⟩
  | .hbm, ⟨50, _⟩ => ⟨S2048x16x49x32, .f32⟩
  | .hbm, ⟨51, _⟩ => ⟨S2048x49x16x32, .f32⟩
  | .hbm, ⟨52, _⟩ => ⟨S2048x49x512, .f32⟩
  | .hbm, ⟨53, _⟩ => ⟨S2048x49x512, .f32⟩
  | .hbm, ⟨54, _⟩ => ⟨S1x1x512, .f32⟩
  | .hbm, ⟨55, _⟩ => ⟨S2048x49x512, .f32⟩
  | .hbm, ⟨56, _⟩ => ⟨S2048x49x512, .f32⟩
  | _, _ => ⟨S2048x49x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  bcast_S1536_S1x1x1536_2 : S1536.BroadcastsInDim S1x1x1536 (![2] : Fin 1 → Fin S1x1x1536.rank)
  bcast_S1x1x1536_S2048x49x1536_0_1_2 : S1x1x1536.BroadcastsInDim S2048x49x1536 (![0, 1, 2] : Fin 3 → Fin S2048x49x1536.rank)
  shapeCasts_S2048x49x1536_S2048x49x3x16x32 : S2048x49x1536.ShapeCasts S2048x49x3x16x32
  transposes_S2048x49x3x16x32_S3x2048x16x49x32_2_0_3_1_4 : S2048x49x3x16x32.Transposes [2, 0, 3, 1, 4] S3x2048x16x49x32
  slices_S3x2048x16x49x32_S1x2048x16x49x32_0_0_0_0_0 : S3x2048x16x49x32.Slices ![0, 0, 0, 0, 0] S1x2048x16x49x32
  shapeCasts_S1x2048x16x49x32_S2048x16x49x32 : S1x2048x16x49x32.ShapeCasts S2048x16x49x32
  slices_S3x2048x16x49x32_S1x2048x16x49x32_1_0_0_0_0 : S3x2048x16x49x32.Slices ![1, 0, 0, 0, 0] S1x2048x16x49x32
  slices_S3x2048x16x49x32_S1x2048x16x49x32_2_0_0_0_0 : S3x2048x16x49x32.Slices ![2, 0, 0, 0, 0] S1x2048x16x49x32
  bcast_S_S49x49 : S_.BroadcastsInDim S49x49 (![] : Fin 0 → Fin S49x49.rank)
  bcast_S49x49_S49x49x1_0_1 : S49x49.BroadcastsInDim S49x49x1 (![0, 1] : Fin 2 → Fin S49x49x1.rank)
  transposes_S49x49x16_S16x49x49_2_0_1 : S49x49x16.Transposes [2, 0, 1] S16x49x49
  bcast_S16x49x49_S1x16x49x49_1_2_3 : S16x49x49.BroadcastsInDim S1x16x49x49 (![1, 2, 3] : Fin 3 → Fin S1x16x49x49.rank)
  bcast_S_S2048x16x49x32 : S_.BroadcastsInDim S2048x16x49x32 (![] : Fin 0 → Fin S2048x16x49x32.rank)
  bcast_S1x16x49x49_S2048x16x49x49_0_1_2_3 : S1x16x49x49.BroadcastsInDim S2048x16x49x49 (![0, 1, 2, 3] : Fin 4 → Fin S2048x16x49x49.rank)
  reducesTo_S2048x16x49x49_S2048x16x49_d3 : S2048x16x49x49.ReducesTo [3] S2048x16x49
  h_S_ : 0 < S_.numel
  bcast_S_S2048x16x49 : S_.BroadcastsInDim S2048x16x49 (![] : Fin 0 → Fin S2048x16x49.rank)
  bcast_S2048x16x49_S2048x16x49x1_0_1_2 : S2048x16x49.BroadcastsInDim S2048x16x49x1 (![0, 1, 2] : Fin 3 → Fin S2048x16x49x1.rank)
  bcast_S2048x16x49x1_S2048x16x49x49_0_1_2_3 : S2048x16x49x1.BroadcastsInDim S2048x16x49x49 (![0, 1, 2, 3] : Fin 4 → Fin S2048x16x49x49.rank)
  transposes_S2048x16x49x32_S2048x49x16x32_0_2_1_3 : S2048x16x49x32.Transposes [0, 2, 1, 3] S2048x49x16x32
  shapeCasts_S2048x49x16x32_S2048x49x512 : S2048x49x16x32.ShapeCasts S2048x49x512
  bcast_S512_S1x1x512_2 : S512.BroadcastsInDim S1x1x512 (![2] : Fin 1 → Fin S1x1x512.rank)
  bcast_S1x1x512_S2048x49x512_0_1_2 : S1x1x512.BroadcastsInDim S2048x49x512 (![0, 1, 2] : Fin 3 → Fin S2048x49x512.rank)
  dot_S2048x49x512_S1536x512_S2048x49x1536_2_1_01_0_n_n_wf : DotDims.WF S2048x49x512 S1536x512 S2048x49x1536 [2] [1] [0, 1] [0] [] []
  gather_S169x16_S49x49x1_S49x49x16_2_0_n_n_0_2_116_wf : GatherDims.WF S169x16 S49x49x1 S49x49x16 [2] [0] [] [0] [] 2 ![1, 16]
  dot_S2048x16x49x32_S2048x16x49x32_S2048x16x49x49_3_3_2_2_01_01_wf : DotDims.WF S2048x16x49x32 S2048x16x49x32 S2048x16x49x49 [3] [3] [2] [2] [0, 1] [0, 1]
  dot_S2048x16x49x49_S2048x16x49x32_S2048x16x49x32_3_2_2_3_01_01_wf : DotDims.WF S2048x16x49x49 S2048x16x49x32 S2048x16x49x32 [3] [2] [2] [3] [0, 1] [0, 1]
  dot_S2048x49x512_S512x512_S2048x49x512_2_1_01_0_n_n_wf : DotDims.WF S2048x49x512 S512x512 S2048x49x512 [2] [1] [0, 1] [0] [] []

variable [Facts₀]

def dot_S2048x49x512_S1536x512_S2048x49x1536_2_1_01_0_n_n : DotDims S2048x49x512 S1536x512 S2048x49x1536 where
  lhsContracting := [2]
  rhsContracting := [1]
  lhsNonContracting := [0, 1]
  rhsNonContracting := [0]
  lhsBatch := []
  rhsBatch := []
  wf := dot_S2048x49x512_S1536x512_S2048x49x1536_2_1_01_0_n_n_wf
def gather_S169x16_S49x49x1_S49x49x16_2_0_n_n_0_2_116 : GatherDims S169x16 S49x49x1 S49x49x16 where
  offsetDims := [2]
  collapsedSliceDims := [0]
  operandBatchingDims := []
  startIndicesBatchingDims := []
  startIndexMap := [0]
  indexVectorDim := 2
  sliceSizes := ![1, 16]
  wf := gather_S169x16_S49x49x1_S49x49x16_2_0_n_n_0_2_116_wf
def dot_S2048x16x49x32_S2048x16x49x32_S2048x16x49x49_3_3_2_2_01_01 : DotDims S2048x16x49x32 S2048x16x49x32 S2048x16x49x49 where
  lhsContracting := [3]
  rhsContracting := [3]
  lhsNonContracting := [2]
  rhsNonContracting := [2]
  lhsBatch := [0, 1]
  rhsBatch := [0, 1]
  wf := dot_S2048x16x49x32_S2048x16x49x32_S2048x16x49x49_3_3_2_2_01_01_wf
def dot_S2048x16x49x49_S2048x16x49x32_S2048x16x49x32_3_2_2_3_01_01 : DotDims S2048x16x49x49 S2048x16x49x32 S2048x16x49x32 where
  lhsContracting := [3]
  rhsContracting := [2]
  lhsNonContracting := [2]
  rhsNonContracting := [3]
  lhsBatch := [0, 1]
  rhsBatch := [0, 1]
  wf := dot_S2048x16x49x49_S2048x16x49x32_S2048x16x49x32_3_2_2_3_01_01_wf
def dot_S2048x49x512_S512x512_S2048x49x512_2_1_01_0_n_n : DotDims S2048x49x512 S512x512 S2048x49x512 where
  lhsContracting := [2]
  rhsContracting := [1]
  lhsNonContracting := [0, 1]
  rhsNonContracting := [0]
  lhsBatch := []
  rhsBatch := []
  wf := dot_S2048x49x512_S512x512_S2048x49x512_2_1_01_0_n_n_wf

class Facts : Prop extends Facts₀ where

variable [Facts]
-- ==== Proof.Spec.lean ====
/-
  Window attention with a relative position bias, for ONE window of 49 tokens and 512 channels in 16 heads of 32 lanes,
  as a function of that window's tokens and of the parameters, entry by entry over the extended reals:
  the fused projection to queries, keys and values, the scaled scores plus bias, a softmax along the key axis,
  the context vectors, and the output projection. Every sum is taken over the whole index range it contracts,
  so it does not depend on how a program tiles or orders it.
-/
import Idealize.ShloMosaic.PureOps.Ideal

noncomputable section

namespace Cert.WinAttn

open Idealize.ShloMosaic

/-- Feature number of (part s, head h, lane d) on the fused axis of 3·16·32 = 1536 features:
    part 0 the queries, part 1 the keys, part 2 the values. -/
def feat (s : Fin 3) (h : Fin 16) (d : Fin 32) : Fin 1536 :=
  ⟨(s.val * 16 + h.val) * 32 + d.val, by have := s.isLt; have := h.isLt; have := d.isLt; omega⟩

/-- The head a channel of the 512 = 16·32 context channels belongs to, and its lane inside the head. -/
def headOf (k : Fin 512) : Fin 16 := ⟨k.val / 32, by have := k.isLt; omega⟩
def laneOf (k : Fin 512) : Fin 32 := ⟨k.val % 32, Nat.mod_lt _ (by decide)⟩

/-- The scale 1/√32 as both programs carry it: one f32 word, never evaluated. -/
def scale : EReal := Ideal.ofBits .f32 0x3E3504F3#32

/-- The softmax's starting value for the running maximum: the f32 word of −∞. -/
def negInf : EReal := Ideal.ofBits .f32 0xFF800000#32

variable (X : Fin 49 → Fin 512 → EReal)
  (Wq : Fin 1536 → Fin 512 → EReal) (bq : Fin 1536 → EReal)
  (Wp : Fin 512 → Fin 512 → EReal) (bp : Fin 512 → EReal)
  (B : Fin 16 → Fin 49 → Fin 49 → EReal)

/-- Token n's fused feature o: the row of X against row o of the weight, plus the bias. -/
def qkv (n : Fin 49) (o : Fin 1536) : EReal := (∑ c : Fin 512, X n c * Wq o c) + bq o

/-- Head h's score of query token n against key token m: scaled query · key over the 32 lanes, plus the bias. -/
def score (h : Fin 16) (n m : Fin 49) : EReal :=
  (∑ d : Fin 32, (qkv X Wq bq n (feat 0 h d) * scale) * qkv X Wq bq m (feat 1 h d)) + B h n m

/-- The row maximum the softmax subtracts. -/
def rowMax (h : Fin 16) (n : Fin 49) : EReal :=
  max negInf ((Finset.univ : Finset (Fin 49)).fold max negInf (fun m => score X Wq bq B h n m))

/-- The softmax's numerators and their row sum. -/
def expo (h : Fin 16) (n m : Fin 49) : EReal := Ideal.exp (score X Wq bq B h n m - rowMax X Wq bq B h n)
def denom (h : Fin 16) (n : Fin 49) : EReal := ∑ m : Fin 49, expo X Wq bq B h n m

/-- The attention weights. -/
def prob (h : Fin 16) (n m : Fin 49) : EReal := Ideal.div (expo X Wq bq B h n m) (denom X Wq bq B h n)

/-- Token n's context in head h, lane d: the weights against the values. -/
def ctx (n : Fin 49) (h : Fin 16) (d : Fin 32) : EReal :=
  ∑ m : Fin 49, prob X Wq bq B h n m * qkv X Wq bq m (feat 2 h d)

/-- The output projection of the 512 context channels. -/
def attn (n : Fin 49) (c : Fin 512) : EReal :=
  (∑ k : Fin 512, ctx X Wq bq B n (headOf k) (laneOf k) * Wp c k) + bp c

end Cert.WinAttn

end
-- ==== Proof.Views.lean ====
/-
  Arrays read by coordinates: an array of rank one, two or three as a function of its coordinates, one matrix of a
  stack of matrices, and the row a (window, head) pair has among the 8·16 = 128 matrices of a block of eight windows.
-/
import proofs.«149666_j84679575208277_1_alg».proof.Proof.Spec
import Idealize.ShloMosaic.Lib.ValueIdx

noncomputable section

namespace Cert.WinAttn

open Idealize.ShloMosaic Idealize.ShloMosaic.ValueIdx

abbrev at1 {a : Nat} (v : (⟨1, ![a]⟩ : Shape).Idx → EReal) : Fin a → EReal := fun i => v (ix1 i)
abbrev at2 {a b : Nat} (v : (⟨2, ![a, b]⟩ : Shape).Idx → EReal) : Fin a → Fin b → EReal := fun i j => v (ix2 i j)
abbrev at3 {a b c : Nat} (v : (⟨3, ![a, b, c]⟩ : Shape).Idx → EReal) : Fin a → Fin b → Fin c → EReal :=
  fun i j k => v (ix3 i j k)

/-- Matrix g of a stack of G matrices. -/
abbrev mat {G a b : Nat} (v : (⟨3, ![G, a, b]⟩ : Shape).Idx → EReal) (g : Fin G) : Fin a → Fin b → EReal :=
  fun i j => v (ix3 g i j)

/-- A block holds eight windows; its 8·16 per-head matrices are numbered window-major. -/
def bh (p : Fin 8) (h : Fin 16) : Fin 128 := ⟨p.val * 16 + h.val, by have := p.isLt; have := h.isLt; omega⟩

end Cert.WinAttn

end
-- ==== Proof.KQkv.lean ====
import proofs.«149666_j84679575208277_1_alg».proof.Proof.Gen.KernelIdeal.Skeleton
import proofs.«149666_j84679575208277_1_alg».proof.Proof.Views
import Idealize.ShloMosaic.Lib.ValueIdx
import Idealize.ShloMosaic.Lib.ValueLayout
import Idealize.ShloMosaic.Lib.Pipeline.Value
import Idealize.ShloMosaic.PureOps.Ideal.Laws

noncomputable section

namespace Cert.WinAttn.K

open Cert.KernelIdeal Cert.KernelIdeal.Gen Idealize.ShloMosaic Idealize.ShloMosaic.ValueIdx Cert.WinAttn

/-- On the left operand of the [392, 512] by [512, 1536] product, axis 0 carries the output row. -/
theorem lhs_qkv_0 (i : S392x1536.Idx) (q : dot_S392x512_S512x1536_S392x1536_1_0_0_1_n_n.contr.Idx) :
    (dot_S392x512_S512x1536_S392x1536_1_0_0_1_n_n.lhsIdx i q 0).val = (i 0).val := by
  unfold DotDims.lhsIdx
  rw [dif_neg (show ¬(0 : Fin S392x512.rank) ∈ dot_S392x512_S512x1536_S392x1536_1_0_0_1_n_n.lhsBatch by decide), dif_pos (show (0 : Fin S392x512.rank) ∈ dot_S392x512_S512x1536_S392x1536_1_0_0_1_n_n.lhsNonContracting by decide)]
  rfl
/-- On the left operand, axis 1 carries the contraction coordinate. -/
theorem lhs_qkv_1 (i : S392x1536.Idx) (q : dot_S392x512_S512x1536_S392x1536_1_0_0_1_n_n.contr.Idx) :
    (dot_S392x512_S512x1536_S392x1536_1_0_0_1_n_n.lhsIdx i q 1).val = (q ⟨0, by decide⟩).val :=
  dot_S392x512_S512x1536_S392x1536_1_0_0_1_n_n.lhsIdx_val_of_single rfl i q
/-- On the right operand, axis 0 carries the contraction coordinate. -/
theorem rhs_qkv_0 (i : S392x1536.Idx) (q : dot_S392x512_S512x1536_S392x1536_1_0_0_1_n_n.contr.Idx) :
    (dot_S392x512_S512x1536_S392x1536_1_0_0_1_n_n.rhsIdx i q 0).val = (q ⟨0, by decide⟩).val :=
  dot_S392x512_S512x1536_S392x1536_1_0_0_1_n_n.rhsIdx_val_of_single rfl i q
/-- On the right operand, axis 1 carries the output column. -/
theorem rhs_qkv_1 (i : S392x1536.Idx) (q : dot_S392x512_S512x1536_S392x1536_1_0_0_1_n_n.contr.Idx) :
    (dot_S392x512_S512x1536_S392x1536_1_0_0_1_n_n.rhsIdx i q 1).val = (i 1).val := by
  unfold DotDims.rhsIdx
  rw [dif_neg (show ¬(1 : Fin S512x1536.rank) ∈ dot_S392x512_S512x1536_S392x1536_1_0_0_1_n_n.rhsBatch by decide), dif_pos (show (1 : Fin S512x1536.rank) ∈ dot_S392x512_S512x1536_S392x1536_1_0_0_1_n_n.rhsNonContracting by decide)]
  rfl

/-- The [392, 512] by [512, 1536] product into a zero accumulator, read at (a, o), is the sum over the 512 contraction coordinates. -/
theorem matmul_qkv_apply (l : FVec Ideal S392x512 .bf16) (r : FVec Ideal S512x1536 .bf16) (a : Fin 392) (o : Fin 1536) :
    matmul dot_S392x512_S512x1536_S392x1536_1_0_0_1_n_n none l r (constant S392x1536 .f32 0x00000000#32) (ix2 a o)
      = ∑ k : Fin 512, l (ix2 a k) * r (ix2 k o) := by
  simp only [matmul]
  rw [Ideal.matmul_constant_zero_apply, ← Equiv.sum_comp (ValueIdx.contrEquiv1 dot_S392x512_S512x1536_S392x1536_1_0_0_1_n_n 512 rfl rfl).symm]
  refine Finset.sum_congr rfl fun k _ => ?_
  have hk := ValueIdx.contrEquiv1_symm_val dot_S392x512_S512x1536_S392x1536_1_0_0_1_n_n 512 rfl rfl k
  have el : dot_S392x512_S512x1536_S392x1536_1_0_0_1_n_n.lhsIdx (ix2 a o) ((ValueIdx.contrEquiv1 dot_S392x512_S512x1536_S392x1536_1_0_0_1_n_n 512 rfl rfl).symm k) = ix2 a k := funext fun b => Fin.ext (by
    match b with
    | ⟨0, _⟩ => exact lhs_qkv_0 _ _
    | ⟨1, _⟩ => exact (lhs_qkv_1 _ _).trans hk)
  have er : dot_S392x512_S512x1536_S392x1536_1_0_0_1_n_n.rhsIdx (ix2 a o) ((ValueIdx.contrEquiv1 dot_S392x512_S512x1536_S392x1536_1_0_0_1_n_n 512 rfl rfl).symm k) = ix2 k o := funext fun b => Fin.ext (by
    match b with
    | ⟨0, _⟩ => exact (rhs_qkv_0 _ _).trans hk
    | ⟨1, _⟩ => exact rhs_qkv_1 _ _)
  rw [el, er]

/-- The block's tokens as a [392, 512] matrix: row p·49+n, column k is token n of window p at channel k. -/
theorem tokens_apply (x : FVec Ideal S8x49x512 .bf16) (hc : S8x49x512.ShapeCasts S392x512)
    (p : Fin 8) (n : Fin 49) (k : Fin 512) (hr : p.val * 49 + n.val < 392) :
    shapeCast S392x512 x hc (ix2 ⟨p.val * 49 + n.val, hr⟩ k) = x (ix3 p n k) :=
  shapeCast_apply x hc _ (ix3 p n k) (by
    rw [Shape.rowMajor_val_two, Shape.rowMajor_val_three]
    show (p.val * 49 + n.val) * 512 + k.val = (p.val * 49 + n.val) * 512 + k.val
    rfl)

/-- The bias as one row broadcast over the 392 rows: row a, column o is the bias at o. -/
theorem bias_apply (b : FVec Ideal S1536 .f32) (hc : S1536.ShapeCasts S1x1536) (hb : S1x1536.Broadcasts S392x1536)
    (a : Fin 392) (o : Fin 1536) :
    broadcastTo S392x1536 (shapeCast S1x1536 b hc) hb (ix2 a o) = b (ix1 o) :=
  (broadcastTo_1b_ab_apply _ hb a o).trans (shapeCast_a_1a_apply b hc 0 o)

/-- The [392, 1536] matrix re-laid as [8, 49, 3, 16, 32]: (p, n, s, h, d) is row p·49+n, column (s·16+h)·32+d. -/
theorem relay_apply (y : FVec Ideal S392x1536 .f32) (hc : S392x1536.ShapeCasts S8x49x3x16x32)
    (p : Fin 8) (n : Fin 49) (s : Fin 3) (h : Fin 16) (d : Fin 32) (hr : p.val * 49 + n.val < 392) :
    shapeCast S8x49x3x16x32 y hc (ix5 p n s h d) = y (ix2 ⟨p.val * 49 + n.val, hr⟩ (feat s h d)) :=
  shapeCast_apply y hc _ _ (by
    rw [Shape.rowMajor_val_two, Shape.rowMajor_val_five]
    show (p.val * 49 + n.val) * 1536 + ((s.val * 16 + h.val) * 32 + d.val)
      = (((p.val * 49 + n.val) * 3 + s.val) * 16 + h.val) * 32 + d.val
    omega)

/-- The fused projection of a block of eight windows, read at (window p, token n, part s, head h, lane d). -/
theorem pay2_apply (x0 : Vec Ideal S8x49x512 .f32) (x1 : Vec Ideal S1536x512 .f32) (x2 : Vec Ideal S1536 .f32)
    (p : Fin 8) (n : Fin 49) (s : Fin 3) (h : Fin 16) (d : Fin 32) :
    k0_pay2 (F := Ideal) x0 x1 x2 (ix5 p n s h d) = qkv (mat x0 p) (at2 x1) (at1 x2) n (feat s h d) := by
  have hr : p.val * 49 + n.val < 392 := by have := p.isLt; have := n.isLt; omega
  unfold k0_pay2 qkv
  refine (relay_apply _ _ p n s h d hr).trans ?_
  rw [addf_apply, matmul_qkv_apply, bias_apply]
  refine congrArg (· + x2 (ix1 (feat s h d))) (Finset.sum_congr rfl fun k _ => ?_)
  rw [tokens_apply, transpose_ix2_apply]
  rfl

end Cert.WinAttn.K

end
-- ==== Proof.KVal.lean ====
import proofs.«149666_j84679575208277_1_alg».proof.Proof.Gen.KernelIdeal.Skeleton
import proofs.«149666_j84679575208277_1_alg».proof.Proof.Views
import Idealize.ShloMosaic.Lib.ValueIdx
import Idealize.ShloMosaic.Lib.ValueLayout
import Idealize.ShloMosaic.Lib.Pipeline.Value
import Idealize.ShloMosaic.PureOps.Ideal.Laws
import proofs.«149666_j84679575208277_1_alg».proof.Proof.KQkv

noncomputable section

namespace Cert.WinAttn.K

open Cert.KernelIdeal Cert.KernelIdeal.Gen Idealize.ShloMosaic Idealize.ShloMosaic.ValueIdx Cert.WinAttn

/-- Flattening [8,16,49,32] to [128,49,32]: row p*16+h, token m, lane d is entry (p, h, m, d). -/
theorem pay3_flat (y : FVec Ideal S8x16x49x32 .f32) (p : Fin 8) (h : Fin 16) (m : Fin 49) (d : Fin 32) :
    shapeCast S128x49x32 y shapeCasts_S8x16x49x32_S128x49x32 (ix3 (bh p h) m d) = y (ix4 p h m d) := by
  refine shapeCast_apply y _ _ (ix4 p h m d) ?_
  rw [Shape.rowMajor_val_four, Shape.rowMajor_val_three]
  rfl

/-- Moving heads in front of tokens: entry (p, h, m, d) of the transpose is entry (p, m, h, d). -/
theorem pay3_swap (y : FVec Ideal S8x49x16x32 .f32) (p : Fin 8) (h : Fin 16) (m : Fin 49) (d : Fin 32) :
    transpose S8x16x49x32 [0, 2, 1, 3] y transposes_S8x49x16x32_p0_2_1_3_S8x16x49x32 (ix4 p h m d) = y (ix4 p m h d) := by
  refine transpose_apply _ y _ _ (ix4 p m h d) fun b => ?_
  match b with
  | ⟨0, _⟩ => rfl
  | ⟨1, _⟩ => rfl
  | ⟨2, _⟩ => rfl
  | ⟨3, _⟩ => rfl

/-- Dropping the unit axis: entry (p, m, h, d) is entry (p, m, 0, h, d). -/
theorem pay3_drop (y : FVec Ideal S8x49x1x16x32 .f32) (p : Fin 8) (m : Fin 49) (h : Fin 16) (d : Fin 32) :
    shapeCast S8x49x16x32 y shapeCasts_S8x49x1x16x32_S8x49x16x32 (ix4 p m h d) = y (ix5 p m 0 h d) := by
  refine shapeCast_apply y _ _ (ix5 p m 0 h d) ?_
  rw [Shape.rowMajor_val_five, Shape.rowMajor_val_four]
  show ((((p.val * 49 + m.val) * 1 + 0) * 16 + h.val) * 32 + d.val) = ((p.val * 49 + m.val) * 16 + h.val) * 32 + d.val
  omega

/-- Slicing part 2 out: entry (p, m, 0, h, d) of the slice is entry (p, m, 2, h, d). -/
theorem pay3_part2 (y : FVec Ideal S8x49x3x16x32 .f32) (p : Fin 8) (m : Fin 49) (h : Fin 16) (d : Fin 32) :
    extractStridedSlice S8x49x1x16x32 ![0, 0, 2, 0, 0] y slices_S8x49x3x16x32_o0_0_2_0_0_S8x49x1x16x32 (ix5 p m 0 h d)
      = y (ix5 p m 2 h d) := by
  refine extractStridedSlice_apply _ y _ _ (ix5 p m 2 h d) fun a => ?_
  match a with
  | ⟨0, _⟩ => exact (Nat.zero_add _).symm
  | ⟨1, _⟩ => exact (Nat.zero_add _).symm
  | ⟨2, _⟩ => rfl
  | ⟨3, _⟩ => exact (Nat.zero_add _).symm
  | ⟨4, _⟩ => exact (Nat.zero_add _).symm

/-- The value block's layout chain read at (p*16+h, m, d) is the payload at (p, m, part 2, h, d). -/
theorem pay3_layout (y : FVec Ideal S8x49x3x16x32 .f32) (p : Fin 8) (h : Fin 16) (m : Fin 49) (d : Fin 32) :
    (truncf .bf16 (shapeCast S128x49x32 (transpose S8x16x49x32 [0, 2, 1, 3]
        (shapeCast S8x49x16x32 (extractStridedSlice S8x49x1x16x32 ![0, 0, 2, 0, 0] y
          slices_S8x49x3x16x32_o0_0_2_0_0_S8x49x1x16x32) shapeCasts_S8x49x1x16x32_S8x49x16x32)
        transposes_S8x49x16x32_p0_2_1_3_S8x16x49x32) shapeCasts_S8x16x49x32_S128x49x32) bitsLt_bf16_f32
      : FVec Ideal S128x49x32 .bf16) (ix3 (bh p h) m d) = y (ix5 p m 2 h d) := by
  rw [truncf_apply, pay3_flat, pay3_swap, pay3_drop, pay3_part2]

/-- The values of a block, one [49, 32] matrix per (window, head): row m, lane d is token m's value feature. -/
theorem pay3_apply (x0 : Vec Ideal S8x49x512 .f32) (x1 : Vec Ideal S1536x512 .f32) (x2 : Vec Ideal S1536 .f32)
    (p : Fin 8) (h : Fin 16) (m : Fin 49) (d : Fin 32) :
    k0_pay3 (F := Ideal) x0 x1 x2 (ix3 (bh p h) m d) = qkv (mat x0 p) (at2 x1) (at1 x2) m (feat 2 h d) := by
  refine (pay3_layout (k0_pay2 (F := Ideal) x0 x1 x2) p h m d).trans ?_
  exact pay2_apply x0 x1 x2 p m 2 h d

end Cert.WinAttn.K

end
-- ==== Proof.KExp.lean ====
import proofs.«149666_j84679575208277_1_alg».proof.Proof.Gen.KernelIdeal.Skeleton
import proofs.«149666_j84679575208277_1_alg».proof.Proof.Views
import Idealize.ShloMosaic.Lib.ValueIdx
import Idealize.ShloMosaic.Lib.ValueLayout
import Idealize.ShloMosaic.Lib.Pipeline.Value
import Idealize.ShloMosaic.PureOps.Ideal.Laws
import proofs.«149666_j84679575208277_1_alg».proof.Proof.KQkv

noncomputable section

namespace Cert.WinAttn.K

open Cert.KernelIdeal Cert.KernelIdeal.Gen Idealize.ShloMosaic Idealize.ShloMosaic.ValueIdx Cert.WinAttn

/-- One part of the fused projection re-laid per (window, head): the slice at part s, its unit axis dropped, tokens and
    heads exchanged, windows and heads merged, read at (16 p + h, n, d), is the projection at (p, n, s, h, d). -/
theorem pay4_part_apply (o : Nat) (hs : S8x49x3x16x32.Slices ![0, 0, o, 0, 0] S8x49x1x16x32)
    (y : FVec Ideal S8x49x3x16x32 .f32) (s : Fin 3) (hso : s.val = o) (p : Fin 8) (h : Fin 16) (n : Fin 49) (d : Fin 32) :
    shapeCast S128x49x32 (transpose S8x16x49x32 [0, 2, 1, 3] (shapeCast S8x49x16x32
        (extractStridedSlice S8x49x1x16x32 ![0, 0, o, 0, 0] y hs) shapeCasts_S8x49x1x16x32_S8x49x16x32)
        transposes_S8x49x16x32_p0_2_1_3_S8x16x49x32) shapeCasts_S8x16x49x32_S128x49x32 (ix3 (bh p h) n d)
      = y (ix5 p n s h d) := by
  refine (shapeCast_apply _ _ (ix3 (bh p h) n d) (ix4 p h n d) ?_).trans ?_
  · rw [Shape.rowMajor_val_four, Shape.rowMajor_val_three]; rfl
  refine (transpose_apply _ _ _ (ix4 p h n d) (ix4 p n h d) ?_).trans ?_
  · intro b
    match b with
    | ⟨0, _⟩ => rfl
    | ⟨1, _⟩ => rfl
    | ⟨2, _⟩ => rfl
    | ⟨3, _⟩ => rfl
  refine (shapeCast_apply _ _ (ix4 p n h d) (ix5 p n (0 : Fin 1) h d) ?_).trans ?_
  · rw [Shape.rowMajor_val_five, Shape.rowMajor_val_four]
    show (((p.val * 49 + n.val) * 1 + 0) * 16 + h.val) * 32 + d.val = ((p.val * 49 + n.val) * 16 + h.val) * 32 + d.val
    omega
  refine extractStridedSlice_apply _ y hs (ix5 p n (0 : Fin 1) h d) (ix5 p n s h d) ?_
  intro a
  match a with
  | ⟨0, _⟩ => show p.val = 0 + p.val; omega
  | ⟨1, _⟩ => show n.val = 0 + n.val; omega
  | ⟨2, _⟩ => show s.val = o + 0; omega
  | ⟨3, _⟩ => show h.val = 0 + h.val; omega
  | ⟨4, _⟩ => show d.val = 0 + d.val; omega

/-- The left operand index of the batched product on the batch axis is the output's matrix number. -/
theorem pay4_lhs_0 (i : S128x49x49.Idx) (q : dot_S128x49x32_S128x49x32_S128x49x49_2_2_1_1_0_0.contr.Idx) :
    (dot_S128x49x32_S128x49x32_S128x49x49_2_2_1_1_0_0.lhsIdx i q 0).val = (i 0).val := by
  unfold DotDims.lhsIdx
  rw [dif_pos (show (0 : Fin S128x49x32.rank) ∈ dot_S128x49x32_S128x49x32_S128x49x49_2_2_1_1_0_0.lhsBatch by decide)]
  rfl
/-- The left operand index on the row axis is the output's row. -/
theorem pay4_lhs_1 (i : S128x49x49.Idx) (q : dot_S128x49x32_S128x49x32_S128x49x49_2_2_1_1_0_0.contr.Idx) :
    (dot_S128x49x32_S128x49x32_S128x49x49_2_2_1_1_0_0.lhsIdx i q 1).val = (i 1).val := by
  unfold DotDims.lhsIdx
  rw [dif_neg (show ¬(1 : Fin S128x49x32.rank) ∈ dot_S128x49x32_S128x49x32_S128x49x49_2_2_1_1_0_0.lhsBatch by decide), dif_pos (show (1 : Fin S128x49x32.rank) ∈ dot_S128x49x32_S128x49x32_S128x49x49_2_2_1_1_0_0.lhsNonContracting by decide)]
  rfl
/-- The left operand index on the lane axis is the contraction coordinate. -/
theorem pay4_lhs_2 (i : S128x49x49.Idx) (q : dot_S128x49x32_S128x49x32_S128x49x49_2_2_1_1_0_0.contr.Idx) :
    (dot_S128x49x32_S128x49x32_S128x49x49_2_2_1_1_0_0.lhsIdx i q 2).val = (q ⟨0, by decide⟩).val :=
  dot_S128x49x32_S128x49x32_S128x49x49_2_2_1_1_0_0.lhsIdx_val_of_single rfl i q
/-- The right operand index on the batch axis is the output's matrix number. -/
theorem pay4_rhs_0 (i : S128x49x49.Idx) (q : dot_S128x49x32_S128x49x32_S128x49x49_2_2_1_1_0_0.contr.Idx) :
    (dot_S128x49x32_S128x49x32_S128x49x49_2_2_1_1_0_0.rhsIdx i q 0).val = (i 0).val := by
  unfold DotDims.rhsIdx
  rw [dif_pos (show (0 : Fin S128x49x32.rank) ∈ dot_S128x49x32_S128x49x32_S128x49x49_2_2_1_1_0_0.rhsBatch by decide)]
  rfl
/-- The right operand index on the row axis is the output's column. -/
theorem pay4_rhs_1 (i : S128x49x49.Idx) (q : dot_S128x49x32_S128x49x32_S128x49x49_2_2_1_1_0_0.contr.Idx) :
    (dot_S128x49x32_S128x49x32_S128x49x49_2_2_1_1_0_0.rhsIdx i q 1).val = (i 2).val := by
  unfold DotDims.rhsIdx
  rw [dif_neg (show ¬(1 : Fin S128x49x32.rank) ∈ dot_S128x49x32_S128x49x32_S128x49x49_2_2_1_1_0_0.rhsBatch by decide), dif_pos (show (1 : Fin S128x49x32.rank) ∈ dot_S128x49x32_S128x49x32_S128x49x49_2_2_1_1_0_0.rhsNonContracting by decide)]
  rfl
/-- The right operand index on the lane axis is the contraction coordinate. -/
theorem pay4_rhs_2 (i : S128x49x49.Idx) (q : dot_S128x49x32_S128x49x32_S128x49x49_2_2_1_1_0_0.contr.Idx) :
    (dot_S128x49x32_S128x49x32_S128x49x49_2_2_1_1_0_0.rhsIdx i q 2).val = (q ⟨0, by decide⟩).val :=
  dot_S128x49x32_S128x49x32_S128x49x49_2_2_1_1_0_0.rhsIdx_val_of_single rfl i q

/-- The batched product of two stacks of [49, 32] matrices over the 32 lanes, into zero, at (g, n, m): the sum over the
    lanes d of the left at (g, n, d) times the right at (g, m, d). -/
theorem pay4_qk_apply (A B : FVec Ideal S128x49x32 .bf16) (g : Fin 128) (n m : Fin 49) :
    matmul dot_S128x49x32_S128x49x32_S128x49x49_2_2_1_1_0_0 none A B (constant (F := Ideal) S128x49x49 .f32 0x00000000#32) (ix3 g n m)
      = ∑ d : Fin 32, A (ix3 g n d) * B (ix3 g m d) := by
  simp only [matmul]
  rw [Ideal.matmul_constant_zero_apply, ← Equiv.sum_comp (ValueIdx.contrEquiv1 dot_S128x49x32_S128x49x32_S128x49x49_2_2_1_1_0_0 32 rfl rfl).symm]
  refine Finset.sum_congr rfl fun k _ => ?_
  have hk := ValueIdx.contrEquiv1_symm_val dot_S128x49x32_S128x49x32_S128x49x49_2_2_1_1_0_0 32 rfl rfl k
  have el : dot_S128x49x32_S128x49x32_S128x49x49_2_2_1_1_0_0.lhsIdx (ix3 g n m) ((ValueIdx.contrEquiv1 dot_S128x49x32_S128x49x32_S128x49x49_2_2_1_1_0_0 32 rfl rfl).symm k) = ix3 g n k := funext fun a => Fin.ext (by
    match a with
    | ⟨0, _⟩ => exact pay4_lhs_0 _ _
    | ⟨1, _⟩ => exact pay4_lhs_1 _ _
    | ⟨2, _⟩ => exact (pay4_lhs_2 _ _).trans hk)
  have er : dot_S128x49x32_S128x49x32_S128x49x49_2_2_1_1_0_0.rhsIdx (ix3 g n m) ((ValueIdx.contrEquiv1 dot_S128x49x32_S128x49x32_S128x49x49_2_2_1_1_0_0 32 rfl rfl).symm k) = ix3 g m k := funext fun a => Fin.ext (by
    match a with
    | ⟨0, _⟩ => exact pay4_rhs_0 _ _
    | ⟨1, _⟩ => exact pay4_rhs_1 _ _
    | ⟨2, _⟩ => exact (pay4_rhs_2 _ _).trans hk)
  rw [el, er]

/-- The bias of the 16 heads broadcast over the 8 windows and flattened to 128 matrices, at (16 p + h, n, m), is the
    bias at (h, n, m). -/
theorem pay4_bias_apply (x5 : FVec Ideal S16x49x49 .f32) (p : Fin 8) (h : Fin 16) (n m : Fin 49) :
    shapeCast S128x49x49 (broadcastTo S8x16x49x49 (shapeCast S1x16x49x49 (shapeCast S1x16x49x49
        (shapeCast S16x49x49 x5 shapeCasts_S16x49x49_S16x49x49) shapeCasts_S16x49x49_S1x16x49x49)
        shapeCasts_S1x16x49x49_S1x16x49x49) broadcasts_S1x16x49x49_S8x16x49x49) shapeCasts_S8x16x49x49_S128x49x49
        (ix3 (bh p h) n m)
      = x5 (ix3 h n m) := by
  refine (shapeCast_apply _ _ (ix3 (bh p h) n m) (ix4 p h n m) ?_).trans ?_
  · rw [Shape.rowMajor_val_four, Shape.rowMajor_val_three]; rfl
  refine (broadcastTo_apply _ _ (ix4 p h n m) (ix4 (0 : Fin 1) h n m) ?_).trans ?_
  · intro a
    match a with
    | ⟨0, _⟩ => rfl
    | ⟨1, _⟩ => rfl
    | ⟨2, _⟩ => rfl
    | ⟨3, _⟩ => rfl
  rw [shapeCast_self, shapeCast_self]
  exact shapeCast_abc_1abc_apply x5 _ 0 h n m

/-- The scores of a block as computed from a fused projection y and the bias: the queries (part 0) times the scale
    word against the keys (part 1) over the 32 lanes, into zero, plus the bias broadcast over the windows. -/
def pay4_scoreV (y : FVec Ideal S8x49x3x16x32 .f32) (x5 : FVec Ideal S16x49x49 .f32) : FVec Ideal S128x49x49 .f32 :=
  addf (matmul dot_S128x49x32_S128x49x32_S128x49x49_2_2_1_1_0_0 none
      (truncf .bf16 (mulf (shapeCast S128x49x32 (transpose S8x16x49x32 [0, 2, 1, 3] (shapeCast S8x49x16x32
        (extractStridedSlice S8x49x1x16x32 ![0, 0, 0, 0, 0] y slices_S8x49x3x16x32_o0_0_0_0_0_S8x49x1x16x32) shapeCasts_S8x49x1x16x32_S8x49x16x32)
        transposes_S8x49x16x32_p0_2_1_3_S8x16x49x32) shapeCasts_S8x16x49x32_S128x49x32)
        (broadcast S128x49x32 (Scalar.ofBits (F := Ideal) .f32 0x3E3504F3#32))) bitsLt_bf16_f32)
      (truncf .bf16 (shapeCast S128x49x32 (transpose S8x16x49x32 [0, 2, 1, 3] (shapeCast S8x49x16x32
        (extractStridedSlice S8x49x1x16x32 ![0, 0, 1, 0, 0] y slices_S8x49x3x16x32_o0_0_1_0_0_S8x49x1x16x32) shapeCasts_S8x49x1x16x32_S8x49x16x32)
        transposes_S8x49x16x32_p0_2_1_3_S8x16x49x32) shapeCasts_S8x16x49x32_S128x49x32) bitsLt_bf16_f32)
      (constant (F := Ideal) S128x49x49 .f32 0x00000000#32))
    (shapeCast S128x49x49 (broadcastTo S8x16x49x49 (shapeCast S1x16x49x49 (shapeCast S1x16x49x49
        (shapeCast S16x49x49 x5 shapeCasts_S16x49x49_S16x49x49) shapeCasts_S16x49x49_S1x16x49x49)
        shapeCasts_S1x16x49x49_S1x16x49x49) broadcasts_S1x16x49x49_S8x16x49x49) shapeCasts_S8x16x49x49_S128x49x49)

/-- The score of (window p, head h) at (n, m): the sum over the lanes of the scaled query of token n times the key of
    token m, plus the head's bias at (n, m). -/
theorem pay4_scoreV_apply (y : FVec Ideal S8x49x3x16x32 .f32) (x5 : FVec Ideal S16x49x49 .f32)
    (p : Fin 8) (h : Fin 16) (n m : Fin 49) :
    pay4_scoreV y x5 (ix3 (bh p h) n m)
      = (∑ d : Fin 32, (y (ix5 p n (0 : Fin 3) h d) * Ideal.ofBits .f32 0x3E3504F3#32) * y (ix5 p m (1 : Fin 3) h d))
        + x5 (ix3 h n m) := by
  unfold pay4_scoreV
  refine (addf_apply _ _ _).trans ?_
  rw [pay4_qk_apply, pay4_bias_apply]
  refine congrArg (· + x5 (ix3 h n m)) (Finset.sum_congr rfl fun d _ => ?_)
  rw [truncf_apply, truncf_apply, mulf_apply, broadcast_apply,
    pay4_part_apply 0 slices_S8x49x3x16x32_o0_0_0_0_0_S8x49x1x16x32 y 0 rfl,
    pay4_part_apply 1 slices_S8x49x3x16x32_o0_0_1_0_0_S8x49x1x16x32 y 1 rfl]
  rfl

/-- The row maxima of a score array as computed: the maximum of each row from −∞, and once more against −∞. -/
def pay4_rowMaxV (S : FVec Ideal S128x49x49 .f32) : FVec Ideal S128x49 .f32 :=
  maximumf (broadcast S128x49 (Scalar.ofBits (F := Ideal) .f32 0xFF800000#32))
    (multiReduction .maximumf [2] S128x49 S 0xFF800000#32 reduces_S128x49x49_S128x49 (.inl rfl) rfl)

/-- The row maximum at (g, n): the larger of −∞ and the fold of max from −∞ over the row's 49 entries. -/
theorem pay4_rowMaxV_apply (S : FVec Ideal S128x49x49 .f32) (g : Fin 128) (n : Fin 49) :
    pay4_rowMaxV S (ix2 g n)
      = max (Ideal.ofBits .f32 0xFF800000#32)
          ((Finset.univ : Finset (Fin 49)).fold max (Ideal.ofBits .f32 0xFF800000#32) (fun m' => S (ix3 g n m'))) := by
  unfold pay4_rowMaxV
  refine (maximumf_apply _ _ _).trans ?_
  refine congrArg (max (Ideal.ofBits .f32 0xFF800000#32)) ?_
  refine (Ideal.multiReduction_maximumf_single S 0xFF800000#32 reduces_S128x49x49_S128x49 (.inl rfl) rfl (ix2 g n)).trans ?_
  refine congrArg ((Finset.univ : Finset (Fin 49)).fold max (Ideal.ofBits .f32 0xFF800000#32)) (funext fun m' => ?_)
  refine congrArg S (funext fun a => Fin.ext ?_)
  match a with
  | ⟨0, _⟩ => rfl
  | ⟨1, _⟩ => rfl
  | ⟨2, _⟩ => rfl

/-- The softmax numerators of a score array as computed: the row maxima kept as a unit column, broadcast along the
    rows, subtracted, and the difference exponentiated. -/
def pay4_expV (S : FVec Ideal S128x49x49 .f32) : FVec Ideal S128x49x49 .f32 :=
  exp (subf S (broadcastTo S128x49x49 (shapeCast S128x49x1 (pay4_rowMaxV S) shapeCasts_S128x49_S128x49x1)
    broadcasts_S128x49x1_S128x49x49))

/-- The numerator at (g, n, m): the exponential of the score less its row's maximum. -/
theorem pay4_expV_apply (S : FVec Ideal S128x49x49 .f32) (g : Fin 128) (n m : Fin 49) :
    pay4_expV S (ix3 g n m)
      = Ideal.exp (S (ix3 g n m) - max (Ideal.ofBits .f32 0xFF800000#32)
          ((Finset.univ : Finset (Fin 49)).fold max (Ideal.ofBits .f32 0xFF800000#32) (fun m' => S (ix3 g n m')))) := by
  unfold pay4_expV
  show Ideal.exp (S (ix3 g n m) - _) = _
  refine congrArg (fun t => Ideal.exp (S (ix3 g n m) - t)) ?_
  refine (broadcastTo_apply _ _ (ix3 g n m) (ix3 g n (0 : Fin 1)) ?_).trans ?_
  · intro a
    match a with
    | ⟨0, _⟩ => rfl
    | ⟨1, _⟩ => rfl
    | ⟨2, _⟩ => rfl
  refine (shapeCast_apply _ _ (ix3 g n (0 : Fin 1)) (ix2 g n) ?_).trans ?_
  · rw [Shape.rowMajor_val_two, Shape.rowMajor_val_three]
    show g.val * 49 + n.val = (g.val * 49 + n.val) * 1 + 0
    omega
  exact pay4_rowMaxV_apply S g n

/-- The softmax numerators of a block, one [49, 49] matrix per (window, head). -/
theorem pay4_apply (x0 : Vec Ideal S8x49x512 .f32) (x1 : Vec Ideal S1536x512 .f32) (x2 : Vec Ideal S1536 .f32)
    (x5 : Vec Ideal S16x49x49 .f32) (p : Fin 8) (h : Fin 16) (n m : Fin 49) :
    k0_pay4 (F := Ideal) x0 x1 x2 x5 (ix3 (bh p h) n m) = expo (mat x0 p) (at2 x1) (at1 x2) (at3 x5) h n m := by
  have hS : ∀ m' : Fin 49, pay4_scoreV (k0_pay2 (F := Ideal) x0 x1 x2) x5 (ix3 (bh p h) n m')
      = score (mat x0 p) (at2 x1) (at1 x2) (at3 x5) h n m' := by
    intro m'
    rw [pay4_scoreV_apply]
    unfold score
    refine congrArg (· + x5 (ix3 h n m')) (Finset.sum_congr rfl fun d _ => ?_)
    rw [pay2_apply, pay2_apply]
    rfl
  refine Eq.trans (show k0_pay4 (F := Ideal) x0 x1 x2 x5 (ix3 (bh p h) n m)
      = pay4_expV (pay4_scoreV (k0_pay2 (F := Ideal) x0 x1 x2) x5) (ix3 (bh p h) n m) from rfl) ?_
  rw [pay4_expV_apply]
  unfold expo rowMax
  simp only [hS]
  rfl

end Cert.WinAttn.K

end
-- ==== Proof.KOut.lean ====
import proofs.«149666_j84679575208277_1_alg».proof.Proof.Gen.KernelIdeal.Skeleton
import proofs.«149666_j84679575208277_1_alg».proof.Proof.Views
import Idealize.ShloMosaic.Lib.ValueIdx
import Idealize.ShloMosaic.Lib.ValueLayout
import Idealize.ShloMosaic.Lib.Pipeline.Value
import Idealize.ShloMosaic.PureOps.Ideal.Laws

noncomputable section

namespace Cert.WinAttn.K

open Cert.KernelIdeal Cert.KernelIdeal.Gen Idealize.ShloMosaic Idealize.ShloMosaic.ValueIdx Cert.WinAttn

/-- The row sum of a stack of matrices along the last axis, read at (g, n): the sum over m of the entries (g, n, m). -/
theorem pay1_rowsum_apply (e : FVec Ideal S128x49x49 .f32) (g : Fin 128) (n : Fin 49) :
    multiReduction (F := Ideal) .add [2] S128x49 e 0x00000000#32 reduces_S128x49x49_S128x49 (.inl rfl) rfl (ix2 g n)
      = ∑ m : Fin 49, e (ix3 g n m) := by
  refine (Ideal.multiReduction_add_single e _ reduces_S128x49x49_S128x49 (.inl rfl) rfl (ix2 g n)).trans ?_
  refine Finset.sum_congr rfl fun m _ => congrArg e (funext fun a => Fin.ext ?_)
  match a with
  | ⟨0, _⟩ => rfl
  | ⟨1, _⟩ => rfl
  | ⟨2, _⟩ => rfl

/-- The entries of e divided by their row sums, read at (g, n, m). -/
theorem pay1_norm_apply (e : FVec Ideal S128x49x49 .f32) (g : Fin 128) (n m : Fin 49) :
    divf e (broadcastTo S128x49x49 (shapeCast S128x49x1
        (multiReduction (F := Ideal) .add [2] S128x49 e 0x00000000#32 reduces_S128x49x49_S128x49 (.inl rfl) rfl)
        shapeCasts_S128x49_S128x49x1) broadcasts_S128x49x1_S128x49x49) (ix3 g n m)
      = Ideal.div (e (ix3 g n m)) (∑ m' : Fin 49, e (ix3 g n m')) := by
  rw [divf_apply]
  refine congrArg (Ideal.div (e (ix3 g n m))) ?_
  refine (broadcastTo_apply _ broadcasts_S128x49x1_S128x49x49 (ix3 g n m) (ix3 g n (0 : Fin 1)) fun a => ?_).trans ?_
  · match a with
    | ⟨0, _⟩ => rfl
    | ⟨1, _⟩ => rfl
    | ⟨2, _⟩ => rfl
  refine (shapeCast_apply _ shapeCasts_S128x49_S128x49x1 (ix3 g n (0 : Fin 1)) (ix2 g n) ?_).trans (pay1_rowsum_apply e g n)
  rw [Shape.rowMajor_val_two, Shape.rowMajor_val_three]
  show g.val * 49 + n.val = (g.val * 49 + n.val) * 1 + 0
  omega

/-- The batched product's left operand index, batch axis: the output's batch coordinate. -/
theorem pay1_ctx_lhs_0 (i : S128x49x32.Idx) (q : dot_S128x49x49_S128x49x32_S128x49x32_2_1_1_2_0_0.contr.Idx) :
    (dot_S128x49x49_S128x49x32_S128x49x32_2_1_1_2_0_0.lhsIdx i q 0).val = (i 0).val := by
  unfold DotDims.lhsIdx
  rw [dif_pos (show (0 : Fin S128x49x49.rank) ∈ dot_S128x49x49_S128x49x32_S128x49x32_2_1_1_2_0_0.lhsBatch by decide)]
  rfl
/-- The batched product's left operand index, row axis: the output's row. -/
theorem pay1_ctx_lhs_1 (i : S128x49x32.Idx) (q : dot_S128x49x49_S128x49x32_S128x49x32_2_1_1_2_0_0.contr.Idx) :
    (dot_S128x49x49_S128x49x32_S128x49x32_2_1_1_2_0_0.lhsIdx i q 1).val = (i 1).val := by
  unfold DotDims.lhsIdx
  rw [dif_neg (show ¬(1 : Fin S128x49x49.rank) ∈ dot_S128x49x49_S128x49x32_S128x49x32_2_1_1_2_0_0.lhsBatch by decide), dif_pos (show (1 : Fin S128x49x49.rank) ∈ dot_S128x49x49_S128x49x32_S128x49x32_2_1_1_2_0_0.lhsNonContracting by decide)]
  rfl
/-- The batched product's left operand index, contracted axis: the contraction coordinate. -/
theorem pay1_ctx_lhs_2 (i : S128x49x32.Idx) (q : dot_S128x49x49_S128x49x32_S128x49x32_2_1_1_2_0_0.contr.Idx) :
    (dot_S128x49x49_S128x49x32_S128x49x32_2_1_1_2_0_0.lhsIdx i q 2).val = (q ⟨0, by decide⟩).val :=
  dot_S128x49x49_S128x49x32_S128x49x32_2_1_1_2_0_0.lhsIdx_val_of_single rfl i q
/-- The batched product's right operand index, batch axis: the output's batch coordinate. -/
theorem pay1_ctx_rhs_0 (i : S128x49x32.Idx) (q : dot_S128x49x49_S128x49x32_S128x49x32_2_1_1_2_0_0.contr.Idx) :
    (dot_S128x49x49_S128x49x32_S128x49x32_2_1_1_2_0_0.rhsIdx i q 0).val = (i 0).val := by
  unfold DotDims.rhsIdx
  rw [dif_pos (show (0 : Fin S128x49x32.rank) ∈ dot_S128x49x49_S128x49x32_S128x49x32_2_1_1_2_0_0.rhsBatch by decide)]
  rfl
/-- The batched product's right operand index, contracted axis: the contraction coordinate. -/
theorem pay1_ctx_rhs_1 (i : S128x49x32.Idx) (q : dot_S128x49x49_S128x49x32_S128x49x32_2_1_1_2_0_0.contr.Idx) :
    (dot_S128x49x49_S128x49x32_S128x49x32_2_1_1_2_0_0.rhsIdx i q 1).val = (q ⟨0, by decide⟩).val :=
  dot_S128x49x49_S128x49x32_S128x49x32_2_1_1_2_0_0.rhsIdx_val_of_single rfl i q
/-- The batched product's right operand index, column axis: the output's column. -/
theorem pay1_ctx_rhs_2 (i : S128x49x32.Idx) (q : dot_S128x49x49_S128x49x32_S128x49x32_2_1_1_2_0_0.contr.Idx) :
    (dot_S128x49x49_S128x49x32_S128x49x32_2_1_1_2_0_0.rhsIdx i q 2).val = (i 2).val := by
  unfold DotDims.rhsIdx
  rw [dif_neg (show ¬(2 : Fin S128x49x32.rank) ∈ dot_S128x49x49_S128x49x32_S128x49x32_2_1_1_2_0_0.rhsBatch by decide), dif_pos (show (2 : Fin S128x49x32.rank) ∈ dot_S128x49x49_S128x49x32_S128x49x32_2_1_1_2_0_0.rhsNonContracting by decide)]
  rfl

/-- The batched product into zero, read at (g, n, d): the sum over m of left (g, n, m) times right (g, m, d). -/
theorem pay1_ctx_apply (l : FVec Ideal S128x49x49 .bf16) (r : FVec Ideal S128x49x32 .bf16) (g : Fin 128) (n : Fin 49) (d : Fin 32) :
    matmul dot_S128x49x49_S128x49x32_S128x49x32_2_1_1_2_0_0 none l r (constant S128x49x32 .f32 0x00000000#32) (ix3 g n d)
      = ∑ m : Fin 49, l (ix3 g n m) * r (ix3 g m d) := by
  simp only [matmul]
  rw [Ideal.matmul_constant_zero_apply, ← Equiv.sum_comp (ValueIdx.contrEquiv1 dot_S128x49x49_S128x49x32_S128x49x32_2_1_1_2_0_0 49 rfl rfl).symm]
  refine Finset.sum_congr rfl fun k _ => ?_
  have hk := ValueIdx.contrEquiv1_symm_val dot_S128x49x49_S128x49x32_S128x49x32_2_1_1_2_0_0 49 rfl rfl k
  have el : dot_S128x49x49_S128x49x32_S128x49x32_2_1_1_2_0_0.lhsIdx (ix3 g n d) ((ValueIdx.contrEquiv1 dot_S128x49x49_S128x49x32_S128x49x32_2_1_1_2_0_0 49 rfl rfl).symm k) = ix3 g n k := funext fun a => Fin.ext (by
    match a with
    | ⟨0, _⟩ => exact pay1_ctx_lhs_0 _ _
    | ⟨1, _⟩ => exact pay1_ctx_lhs_1 _ _
    | ⟨2, _⟩ => exact (pay1_ctx_lhs_2 _ _).trans hk)
  have er : dot_S128x49x49_S128x49x32_S128x49x32_2_1_1_2_0_0.rhsIdx (ix3 g n d) ((ValueIdx.contrEquiv1 dot_S128x49x49_S128x49x32_S128x49x32_2_1_1_2_0_0 49 rfl rfl).symm k) = ix3 g k d := funext fun a => Fin.ext (by
    match a with
    | ⟨0, _⟩ => exact pay1_ctx_rhs_0 _ _
    | ⟨1, _⟩ => exact (pay1_ctx_rhs_1 _ _).trans hk
    | ⟨2, _⟩ => exact pay1_ctx_rhs_2 _ _)
  rw [el, er]

/-- The plain product's left operand index, row axis: the output's row. -/
theorem pay1_proj_lhs_0 (i : S392x512.Idx) (q : dot_S392x512_S512x512_S392x512_1_0_0_1_n_n.contr.Idx) :
    (dot_S392x512_S512x512_S392x512_1_0_0_1_n_n.lhsIdx i q 0).val = (i 0).val := by
  unfold DotDims.lhsIdx
  rw [dif_neg (show ¬(0 : Fin S392x512.rank) ∈ dot_S392x512_S512x512_S392x512_1_0_0_1_n_n.lhsBatch by decide), dif_pos (show (0 : Fin S392x512.rank) ∈ dot_S392x512_S512x512_S392x512_1_0_0_1_n_n.lhsNonContracting by decide)]
  rfl
/-- The plain product's left operand index, contracted axis: the contraction coordinate. -/
theorem pay1_proj_lhs_1 (i : S392x512.Idx) (q : dot_S392x512_S512x512_S392x512_1_0_0_1_n_n.contr.Idx) :
    (dot_S392x512_S512x512_S392x512_1_0_0_1_n_n.lhsIdx i q 1).val = (q ⟨0, by decide⟩).val :=
  dot_S392x512_S512x512_S392x512_1_0_0_1_n_n.lhsIdx_val_of_single rfl i q
/-- The plain product's right operand index, contracted axis: the contraction coordinate. -/
theorem pay1_proj_rhs_0 (i : S392x512.Idx) (q : dot_S392x512_S512x512_S392x512_1_0_0_1_n_n.contr.Idx) :
    (dot_S392x512_S512x512_S392x512_1_0_0_1_n_n.rhsIdx i q 0).val = (q ⟨0, by decide⟩).val :=
  dot_S392x512_S512x512_S392x512_1_0_0_1_n_n.rhsIdx_val_of_single rfl i q
/-- The plain product's right operand index, column axis: the output's column. -/
theorem pay1_proj_rhs_1 (i : S392x512.Idx) (q : dot_S392x512_S512x512_S392x512_1_0_0_1_n_n.contr.Idx) :
    (dot_S392x512_S512x512_S392x512_1_0_0_1_n_n.rhsIdx i q 1).val = (i 1).val := by
  unfold DotDims.rhsIdx
  rw [dif_neg (show ¬(1 : Fin S512x512.rank) ∈ dot_S392x512_S512x512_S392x512_1_0_0_1_n_n.rhsBatch by decide), dif_pos (show (1 : Fin S512x512.rank) ∈ dot_S392x512_S512x512_S392x512_1_0_0_1_n_n.rhsNonContracting by decide)]
  rfl

/-- The product with a transposed weight into zero, read at (r, c): the sum over k of left (r, k) times weight (c, k). -/
theorem pay1_proj_apply (l : FVec Ideal S392x512 .bf16) (w : FVec Ideal S512x512 .bf16) (r : Fin 392) (c : Fin 512) :
    matmul dot_S392x512_S512x512_S392x512_1_0_0_1_n_n none l (transpose S512x512 [1, 0] w transposes_S512x512_p1_0_S512x512) (constant S392x512 .f32 0x00000000#32) (ix2 r c)
      = ∑ k : Fin 512, l (ix2 r k) * w (ix2 c k) := by
  simp only [matmul]
  rw [Ideal.matmul_constant_zero_apply, ← Equiv.sum_comp (ValueIdx.contrEquiv1 dot_S392x512_S512x512_S392x512_1_0_0_1_n_n 512 rfl rfl).symm]
  refine Finset.sum_congr rfl fun k _ => ?_
  have hk := ValueIdx.contrEquiv1_symm_val dot_S392x512_S512x512_S392x512_1_0_0_1_n_n 512 rfl rfl k
  have el : dot_S392x512_S512x512_S392x512_1_0_0_1_n_n.lhsIdx (ix2 r c) ((ValueIdx.contrEquiv1 dot_S392x512_S512x512_S392x512_1_0_0_1_n_n 512 rfl rfl).symm k) = ix2 r k := funext fun a => Fin.ext (by
    match a with
    | ⟨0, _⟩ => exact pay1_proj_lhs_0 _ _
    | ⟨1, _⟩ => exact (pay1_proj_lhs_1 _ _).trans hk)
  have er : dot_S392x512_S512x512_S392x512_1_0_0_1_n_n.rhsIdx (ix2 r c) ((ValueIdx.contrEquiv1 dot_S392x512_S512x512_S392x512_1_0_0_1_n_n 512 rfl rfl).symm k) = ix2 k c := funext fun a => Fin.ext (by
    match a with
    | ⟨0, _⟩ => exact (pay1_proj_rhs_0 _ _).trans hk
    | ⟨1, _⟩ => exact pay1_proj_rhs_1 _ _)
  rw [el, er, transpose_ix2_apply]

/-- Row p·49 + n of the 392 = 8·49 rows a block's tokens fill, window-major. -/
def pay1_row (p : Fin 8) (n : Fin 49) : Fin 392 := ⟨p.val * 49 + n.val, by have := p.isLt; have := n.isLt; omega⟩

/-- Heads laid side by side: the per-(window, head) matrices recast, transposed and flattened to rows of 512 channels read,
    at row p·49 + n and channel k, matrix (p, head of k) at (n, lane of k). -/
theorem pay1_lay_apply (y : FVec Ideal S128x49x32 .f32) (p : Fin 8) (n : Fin 49) (k : Fin 512) :
    shapeCast S392x512 (transpose S8x49x16x32 [0, 2, 1, 3] (shapeCast S8x16x49x32 y shapeCasts_S128x49x32_S8x16x49x32)
        transposes_S8x16x49x32_p0_2_1_3_S8x49x16x32) shapeCasts_S8x49x16x32_S392x512 (ix2 (pay1_row p n) k)
      = y (ix3 (bh p (headOf k)) n (laneOf k)) := by
  refine (shapeCast_apply _ shapeCasts_S8x49x16x32_S392x512 (ix2 (pay1_row p n) k) (ix4 p n (headOf k) (laneOf k)) ?_).trans ?_
  · rw [Shape.rowMajor_val_two, Shape.rowMajor_val_four]
    show ((p.val * 49 + n.val) * 16 + k.val / 32) * 32 + k.val % 32 = (p.val * 49 + n.val) * 512 + k.val
    omega
  refine (transpose_apply _ _ transposes_S8x16x49x32_p0_2_1_3_S8x49x16x32 (ix4 p n (headOf k) (laneOf k))
    (ix4 p (headOf k) n (laneOf k)) fun b => ?_).trans ?_
  · match b with
    | ⟨0, _⟩ => rfl
    | ⟨1, _⟩ => rfl
    | ⟨2, _⟩ => rfl
    | ⟨3, _⟩ => rfl
  refine shapeCast_apply _ shapeCasts_S128x49x32_S8x16x49x32 (ix4 p (headOf k) n (laneOf k)) (ix3 (bh p (headOf k)) n (laneOf k)) ?_
  rw [Shape.rowMajor_val_three, Shape.rowMajor_val_four]
  show ((p.val * 16 + k.val / 32) * 49 + n.val) * 32 + k.val % 32 = ((p.val * 16 + k.val / 32) * 49 + n.val) * 32 + k.val % 32
  rfl

/-- The bias as one row broadcast over the 392 rows, read at (r, c): the bias at c. -/
theorem pay1_bias_apply (b : Vec Ideal S512 .f32) (r : Fin 392) (c : Fin 512) :
    broadcastTo S392x512 (shapeCast S1x512 b shapeCasts_S512_S1x512) broadcasts_S1x512_S392x512 (ix2 r c) = b (ix1 c) :=
  (broadcastTo_1b_ab_apply _ broadcasts_S1x512_S392x512 r c).trans (shapeCast_a_1a_apply b shapeCasts_S512_S1x512 0 c)

/-- The 392 rows regrouped as 8 windows of 49 tokens, read at (p, n, c): row p·49 + n at c. -/
theorem pay1_regroup_apply (z : FVec Ideal S392x512 .f32) (p : Fin 8) (n : Fin 49) (c : Fin 512) :
    shapeCast S8x49x512 z shapeCasts_S392x512_S8x49x512 (ix3 p n c) = z (ix2 (pay1_row p n) c) := by
  refine shapeCast_apply z shapeCasts_S392x512_S8x49x512 (ix3 p n c) (ix2 (pay1_row p n) c) ?_
  rw [Shape.rowMajor_val_two, Shape.rowMajor_val_three]
  rfl

/-- From ANY numerators e and values v, one matrix per (window, head): normalise the rows of e, multiply by v,
    lay the heads side by side as 512 channels and project. -/
theorem pay1_apply (v : FVec Ideal S128x49x32 .bf16) (e : FVec Ideal S128x49x49 .f32)
    (x3 : Vec Ideal S512x512 .f32) (x4 : Vec Ideal S512 .f32) (p : Fin 8) (n : Fin 49) (c : Fin 512) :
    k0_pay1 (F := Ideal) v e x3 x4 (ix3 p n c)
      = (∑ k : Fin 512, (∑ m : Fin 49, Ideal.div (e (ix3 (bh p (headOf k)) n m)) (∑ m' : Fin 49, e (ix3 (bh p (headOf k)) n m'))
            * v (ix3 (bh p (headOf k)) m (laneOf k))) * x3 (ix2 c k)) + x4 (ix1 c) := by
  unfold k0_pay1
  refine (pay1_regroup_apply _ p n c).trans ?_
  refine (addf_apply _ _ _).trans ?_
  refine congrArg₂ (· + ·) ?_ (pay1_bias_apply x4 (pay1_row p n) c)
  refine (pay1_proj_apply _ _ (pay1_row p n) c).trans ?_
  refine Finset.sum_congr rfl fun k _ => ?_
  refine congrArg₂ (· * ·) ?_ rfl
  refine (truncf_apply (ψ := .bf16) (φ := .f32) _ bitsLt_bf16_f32 (ix2 (pay1_row p n) k)).trans ?_
  refine (pay1_lay_apply _ p n k).trans ?_
  refine (pay1_ctx_apply _ _ (bh p (headOf k)) n (laneOf k)).trans ?_
  refine Finset.sum_congr rfl fun m _ => ?_
  refine congrArg₂ (· * ·) ?_ rfl
  refine (truncf_apply (ψ := .bf16) (φ := .f32) _ bitsLt_bf16_f32 (ix3 (bh p (headOf k)) n m)).trans ?_
  exact pay1_norm_apply e (bh p (headOf k)) n m

end Cert.WinAttn.K

end
-- ==== Proof.KBlock.lean ====
import proofs.«149666_j84679575208277_1_alg».proof.Proof.Gen.KernelIdeal.Skeleton
import proofs.«149666_j84679575208277_1_alg».proof.Proof.Views
import Idealize.ShloMosaic.Lib.ValueIdx
import Idealize.ShloMosaic.Lib.ValueLayout
import Idealize.ShloMosaic.Lib.Pipeline.Value
import Idealize.ShloMosaic.PureOps.Ideal.Laws
import proofs.«149666_j84679575208277_1_alg».proof.Proof.KVal
import proofs.«149666_j84679575208277_1_alg».proof.Proof.KExp
import proofs.«149666_j84679575208277_1_alg».proof.Proof.KOut

noncomputable section

namespace Cert.WinAttn.K

open Cert.KernelIdeal Cert.KernelIdeal.Gen Idealize.ShloMosaic Idealize.ShloMosaic.ValueIdx Cert.WinAttn

/-- What the body computes from a block of eight windows is, window by window, the attention of that window. -/
theorem body_apply (x0 : Vec Ideal S8x49x512 .f32) (x1 : Vec Ideal S1536x512 .f32) (x2 : Vec Ideal S1536 .f32)
    (x3 : Vec Ideal S512x512 .f32) (x4 : Vec Ideal S512 .f32) (x5 : Vec Ideal S16x49x49 .f32)
    (p : Fin 8) (n : Fin 49) (c : Fin 512) :
    k0_pay1 (F := Ideal) (k0_pay3 x0 x1 x2) (k0_pay4 x0 x1 x2 x5) x3 x4 (ix3 p n c)
      = attn (mat x0 p) (at2 x1) (at1 x2) (at2 x3) (at1 x4) (at3 x5) n c := by
  rw [pay1_apply]
  unfold attn ctx prob denom
  simp only [pay3_apply, pay4_apply]

end Cert.WinAttn.K

end
-- ==== Proof.Blocks.lean ====
/-
  From blocks to the array. The grid has 256 points; point t stages windows 8t … 8t+7 of the token array and the
  whole of each parameter array, and writes back windows 8t … 8t+7 of the result. Since the body computes each
  window's attention from that window's tokens alone, what point t writes back is block t of ONE function of the
  argument arrays, and the 256 blocks tile the result.
-/
import proofs.«149666_j84679575208277_1_alg».proof.Proof.Gen.KernelIdeal.Value
import proofs.«149666_j84679575208277_1_alg».proof.Proof.KBlock
import Idealize.ShloMosaic.Lib.StableHlo.Run

set_option maxRecDepth 16384

noncomputable section

namespace Cert.WinAttn.Blocks

open Cert.KernelIdeal Cert.KernelIdeal.Gen Cert.KernelIdeal.Value Idealize.ShloMosaic Idealize.ShloMosaic.TcCoe Idealize.SL.Sem
open Idealize.ShloMosaic.ValueIdx Cert.WinAttn
open Idealize.ShloMosaic.Pipeline (Dat)

variable (m : (ℓ : Loc nD τ sig) → Buf (Elt Ideal) ℓ) (ρ : Dev nD → PrngReg)

/-- The attention of every window of the token array, as one function of the arrays. -/
def attnAll (a0 : S2048x49x512.Idx → EReal) (a2 : S1536x512.Idx → EReal) (a3 : S1536.Idx → EReal)
    (a4 : S512x512.Idx → EReal) (a5 : S512.Idx → EReal) (bias : S16x49x49.Idx → EReal) : S2048x49x512.Idx → EReal :=
  fun i => attn (mat a0 (i 0)) (at2 a2) (at1 a3) (at2 a4) (at1 a5) (at3 bias) (i 1) (i 2)

theorem attnAll_ix3 (a0 : S2048x49x512.Idx → EReal) (a2 : S1536x512.Idx → EReal) (a3 : S1536.Idx → EReal)
    (a4 : S512x512.Idx → EReal) (a5 : S512.Idx → EReal) (bias : S16x49x49.Idx → EReal) (b : Fin 2048) (n : Fin 49) (c : Fin 512) :
    attnAll a0 a2 a3 a4 a5 bias (ix3 b n c) = attn (mat a0 b) (at2 a2) (at1 a3) (at2 a4) (at1 a5) (at3 bias) n c := rfl

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The index maps over the grid: the token and result windows move with the point along the window axis,
    every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = 0 ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-- The token window's block at point t holds windows 8t … 8t+7 of the token array. -/
theorem blk0 (c : Dev nD) (t : Fin cfg0.N) (p : Fin 8) (n : Fin 49) (k : Fin 512) :
    iblk m c 0 t (ix3 p n k) = V m c main_arg0 (ix3 ⟨t.val * 8 + p.val, by have := t.isLt; have h : cfg0.N = 256 := N_0; have := p.isLt; omega⟩ n k) := by
  obtain ⟨e0, e1, e2, -⟩ := idx_facts t
  show V m c main_arg0 (((cfg0.win 0).blk t).view.emb (ix3 p n k)) = _
  refine congrArg _ (funext fun a => Fin.ext ?_)
  match a with
  | ⟨0, _⟩ => show win0_0.index t (0 : Fin 3) * 8 + 1 * p.val = t.val * 8 + p.val; omega
  | ⟨1, _⟩ => show win0_0.index t (1 : Fin 3) * 49 + 1 * n.val = n.val; omega
  | ⟨2, _⟩ => show win0_0.index t (2 : Fin 3) * 512 + 1 * k.val = k.val; omega

/-- Each parameter window's block at any point is the whole array. -/
theorem blk1 (c : Dev nD) (t : Fin cfg0.N) (y : S1536x512.Idx) : iblk m c 1 t y = V m c main_arg2 y := by
  obtain ⟨-, -, -, e0, e1, -⟩ := idx_facts t
  show V m c main_arg2 (((cfg0.win 1).blk t).view.emb y) = V m c main_arg2 y
  refine congrArg _ (funext fun a => Fin.ext ?_)
  match a with
  | ⟨0, _⟩ => show win0_1.index t (0 : Fin 2) * 1536 + 1 * (y 0).val = (y 0).val; omega
  | ⟨1, _⟩ => show win0_1.index t (1 : Fin 2) * 512 + 1 * (y 1).val = (y 1).val; omega

theorem blk2 (c : Dev nD) (t : Fin cfg0.N) (y : S1536.Idx) : iblk m c 2 t y = V m c main_arg3 y := by
  obtain ⟨-, -, -, -, -, e0, -⟩ := idx_facts t
  show V m c main_arg3 (((cfg0.win 2).blk t).view.emb y) = V m c main_arg3 y
  refine congrArg _ (funext fun a => Fin.ext ?_)
  match a with
  | ⟨0, _⟩ => show win0_2.index t (0 : Fin 1) * 1536 + 1 * (y 0).val = (y 0).val; omega

theorem blk3 (c : Dev nD) (t : Fin cfg0.N) (y : S512x512.Idx) : iblk m c 3 t y = V m c main_arg4 y := by
  obtain ⟨-, -, -, -, -, -, e0, e1, -⟩ := idx_facts t
  show V m c main_arg4 (((cfg0.win 3).blk t).view.emb y) = V m c main_arg4 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega

theorem blk4 (c : Dev nD) (t : Fin cfg0.N) (y : S512.Idx) : iblk m c 4 t y = V m c main_arg5 y := by
  obtain ⟨-, -, -, -, -, -, -, -, e0, -⟩ := idx_facts t
  show V m c main_arg5 (((cfg0.win 4).blk t).view.emb y) = V m c main_arg5 y
  refine congrArg _ (funext fun a => Fin.ext ?_)
  match a with
  | ⟨0, _⟩ => show win0_4.index t (0 : Fin 1) * 512 + 1 * (y 0).val = (y 0).val; omega

theorem blk5 (c : Dev nD) (t : Fin cfg0.N) (y : S16x49x49.Idx) : iblk m c 5 t y = V m c main_v7 y := by
  obtain ⟨-, -, -, -, -, -, -, -, -, e0, e1, e2, -⟩ := idx_facts t
  show V m c main_v7 (((cfg0.win 5).blk t).view.emb y) = V m c main_v7 y
  refine congrArg _ (funext fun a => Fin.ext ?_)
  match a with
  | ⟨0, _⟩ => show win0_5.index t (0 : Fin 3) * 16 + 1 * (y 0).val = (y 0).val; omega
  | ⟨1, _⟩ => show win0_5.index t (1 : Fin 3) * 49 + 1 * (y 1).val = (y 1).val; omega
  | ⟨2, _⟩ => show win0_5.index t (2 : Fin 3) * 49 + 1 * (y 2).val = (y 2).val; omega

/-- The row of the result array that row p of point t's block is. -/
def rowOf (t : Fin cfg0.N) (p : Fin 8) : Fin 2048 :=
  ⟨t.val * 8 + p.val, by have := t.isLt; have h : cfg0.N = 256 := N_0; have := p.isLt; omega⟩

/-- What point t writes back is block t of the attention of every window. -/
theorem flushed_eq (c : Dev nD) (t : Fin cfg0.N) :
    (dats m 0 c).flushed 6 t = ((cfg0.win 6).blk t).view.read (Elt Ideal)
      (attnAll (V m c main_arg0) (V m c main_arg2) (V m c main_arg3) (V m c main_arg4) (V m c main_arg5) (V m c main_v7)) := by
  rw [flushed6]
  unfold out0_6
  rw [View.canon_unit_zero hz3]
  simp only [View.ld_unit_zero (S := S8x49x512) hz3, View.ld_unit_zero (S := S1536x512) hz2, View.ld_unit_zero (S := S1536) hz1,
    View.ld_unit_zero (S := S512x512) hz2, View.ld_unit_zero (S := S512) hz1, View.ld_unit_zero (S := S16x49x49) hz3]
  obtain ⟨-, -, -, -, -, -, -, -, -, -, -, -, e0, e1, e2⟩ := idx_facts t
  funext j
  obtain ⟨p, n, k, rfl⟩ : ∃ (p : Fin 8) (n : Fin 49) (k : Fin 512), j = ix3 p n k := ⟨j 0, j 1, j 2, eq_ix3 j⟩
  show k0_pay1 (F := Ideal) (k0_pay3 (iblk m c 0 t) (iblk m c 1 t) (iblk m c 2 t))
      (k0_pay4 (iblk m c 0 t) (iblk m c 1 t) (iblk m c 2 t) (iblk m c 5 t)) (iblk m c 3 t) (iblk m c 4 t) (ix3 p n k)
    = attnAll (V m c main_arg0) (V m c main_arg2) (V m c main_arg3) (V m c main_arg4) (V m c main_arg5) (V m c main_v7)
        (((cfg0.win 6).blk t).view.emb (ix3 p n k))
  refine (K.body_apply (iblk m c 0 t) (iblk m c 1 t) (iblk m c 2 t) (iblk m c 3 t) (iblk m c 4 t) (iblk m c 5 t) p n k).trans ?_
  have hemb : ((cfg0.win 6).blk t).view.emb (ix3 p n k) = ix3 (rowOf t p) n k := by
    funext a; apply Fin.ext
    match a with
    | ⟨0, _⟩ => show win0_6.index t (0 : Fin 3) * 8 + 1 * p.val = t.val * 8 + p.val; omega
    | ⟨1, _⟩ => show win0_6.index t (1 : Fin 3) * 49 + 1 * n.val = n.val; omega
    | ⟨2, _⟩ => show win0_6.index t (2 : Fin 3) * 512 + 1 * k.val = k.val; omega
  rw [hemb, attnAll_ix3]
  have h0 : mat (iblk m c 0 t) p = mat (V m c main_arg0) (rowOf t p) :=
    funext fun n' => funext fun k' => blk0 m c t p n' k'
  have h1 : at2 (iblk m c 1 t) = at2 (V m c main_arg2) := funext fun i => funext fun j => blk1 m c t (ix2 i j)
  have h2 : at1 (iblk m c 2 t) = at1 (V m c main_arg3) := funext fun i => blk2 m c t (ix1 i)
  have h3 : at2 (iblk m c 3 t) = at2 (V m c main_arg4) := funext fun i => funext fun j => blk3 m c t (ix2 i j)
  have h4 : at1 (iblk m c 4 t) = at1 (V m c main_arg5) := funext fun i => blk4 m c t (ix1 i)
  have h5 : at3 (iblk m c 5 t) = at3 (V m c main_v7) :=
    funext fun i => funext fun j => funext fun l => blk5 m c t (ix3 i j l)
  rw [h0, h1, h2, h3, h4, h5]

/-- An index of the result array is in point t's block iff its window is one of 8t … 8t+7. -/
theorem mem_blk (t : Fin cfg0.N) (i : S2048x49x512.Idx) :
    i ∈ ((cfg0.win 6).blk t).view.set ↔ ∀ a : Fin 3, win0_6.index t a * S8x49x512.size a ≤ (i a).val ∧ (i a).val < win0_6.index t a * S8x49x512.size a + S8x49x512.size a := by
  show i ∈ ((View.whole main_v8).slice (win0_6.rect t)).set ↔ _
  rw [View.set_slice_whole, Rect.mem_set_unit]
  exact Iff.rfl

/-- Every index of the result array is in the block of the point its window belongs to. -/
theorem cover (i : S2048x49x512.Idx) : ∃ t : Fin cfg0.N, (cfg0.win 6).flush t = true ∧ i ∈ ((cfg0.win 6).blk t).view.set := by
  have hN : cfg0.N = 256 := N_0
  have hi0 : (i 0).val < 2048 := (i 0).isLt
  have hi1 : (i 1).val < 49 := (i 1).isLt
  have hi2 : (i 2).val < 512 := (i 2).isLt
  let t : Fin cfg0.N := ⟨(i 0).val / 8, by omega⟩
  obtain ⟨-, -, -, -, -, -, -, -, -, -, -, -, e0, e1, e2⟩ := idx_facts t
  have ht : t.val = (i 0).val / 8 := rfl
  refine ⟨t, flush0_6 t, ?_⟩
  rw [mem_blk]
  intro a
  match a with
  | ⟨0, _⟩ => show win0_6.index t (0 : Fin 3) * 8 ≤ (i 0).val ∧ (i 0).val < win0_6.index t (0 : Fin 3) * 8 + 8; omega
  | ⟨1, _⟩ => show win0_6.index t (1 : Fin 3) * 49 ≤ (i 1).val ∧ (i 1).val < win0_6.index t (1 : Fin 3) * 49 + 49; omega
  | ⟨2, _⟩ => show win0_6.index t (2 : Fin 3) * 512 ≤ (i 2).val ∧ (i 2).val < win0_6.index t (2 : Fin 3) * 512 + 512; omega

/-- So the result array ends holding the attention of every window of the token array as the region finds it. -/
theorem final (c : Dev nD) : (dats m 0 c).arrAt 6 cfg0.N
    = attnAll (V m c main_arg0) (V m c main_arg2) (V m c main_arg3) (V m c main_arg4) (V m c main_arg5) (V m c main_v7) :=
  (dats m 0 c).arrAt_eq_of_cover 6 _ (fun t _ => flushed_eq m c t) cover

/-- The bias as the host prepares it before the region: negative indices wrapped by the table's 169 rows, the
    table's rows gathered at them, the 16 heads moved in front. -/
def biasOf (x1 : (⟨S169x16, .f32⟩ : BufTy).Contents (Elt Ideal)) (x6 : (⟨S49x49, .i32⟩ : BufTy).Contents (Elt Ideal)) :
    (⟨S16x49x49, .f32⟩ : BufTy).Contents (Elt Ideal) :=
  transpose S16x49x49 [2, 0, 1]
    (Host.gather gather_S169x16_S49x49x1_S49x49x16_2_0_n_n_0_2_116 x1
      (broadcastInDim S49x49x1 ![0, 1] bcast_S49x49_S49x49x1_0_1
        (select (cmpi .slt x6 (broadcastInDim S49x49 ![] bcast_S_S49x49 (constantI S_ 32 0#32)))
          (addi x6 (broadcastInDim S49x49 ![] bcast_S_S49x49 (constantI S_ 32 169#32))) x6)))
    transposes_S49x49x16_S16x49x49_2_0_1

/-- The region finds that bias in the sixth window's array. -/
theorem V_bias (c : Dev nD) :
    V m c main_v7 = biasOf (m ((c : Thread nD τ).loc main_arg1)) (m ((c : Thread nD τ).loc main_arg6)) := by
  unfold biasOf
  dsimp only [Gen.V, Gen.hostOps0]
  after_results

/-- The run, read: the result array holds the attention of every window of the token argument under the
    parameter arguments and the host's bias; the arguments end unchanged. -/
theorem run : θ_run defs (onTc (τ := τ) (main (F := Ideal))) ⟨m, fun _ => 0, ρ⟩ fun r => ∀ c : Dev nD,
      r.2.mem ((c : Thread nD τ).loc main_v8)
        = attnAll (m ((c : Thread nD τ).loc main_arg0)) (m ((c : Thread nD τ).loc main_arg2)) (m ((c : Thread nD τ).loc main_arg3))
            (m ((c : Thread nD τ).loc main_arg4)) (m ((c : Thread nD τ).loc main_arg5))
            (biasOf (m ((c : Thread nD τ).loc main_arg1)) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (by
      rw [final m c, V_main_arg0, V_main_arg2, V_main_arg3, V_main_arg4, V_main_arg5, V_bias]), (h c).2⟩)
    (run_blocks m ρ)

end Cert.WinAttn.Blocks

end
-- ==== Proof.RQkv.lean ====
import proofs.«149666_j84679575208277_1_alg».proof.Proof.Gen.ReferenceIdeal.Read
import proofs.«149666_j84679575208277_1_alg».proof.Proof.Views
import Idealize.ShloMosaic.Lib.ValueIdx
import Idealize.ShloMosaic.Lib.ValueLayout
import Idealize.ShloMosaic.Lib.Pipeline.Value
import Idealize.ShloMosaic.PureOps.Ideal.Laws

noncomputable section

namespace Cert.WinAttn.R

open Cert.ReferenceIdeal Cert.ReferenceIdeal.Read Idealize.ShloMosaic Idealize.ShloMosaic.ValueIdx Cert.WinAttn

/-- Term k of the contraction at (b, n, o) reads the tokens at (b, n, k). -/
theorem lidx_ix3 (b : Fin 2048) (n : Fin 49) (o : Fin 1536) (k : Fin 512) :
    lidx_main_v0 (ix3 b n o) k = ix3 b n k :=
  funext fun a => match a with
    | ⟨0, _⟩ => rfl
    | ⟨1, _⟩ => rfl
    | ⟨2, _⟩ => rfl

/-- Term k of the contraction at (b, n, o) reads the weight at (o, k). -/
theorem ridx_ix3 (b : Fin 2048) (n : Fin 49) (o : Fin 1536) (k : Fin 512) :
    ridx_main_v0 (ix3 b n o) k = ix2 o k :=
  funext fun a => match a with
    | ⟨0, _⟩ => rfl
    | ⟨1, _⟩ => rfl

/-- The broadcast bias at (b, n, o) reads the bias vector at o. -/
theorem bidx_ix3 (b : Fin 2048) (n : Fin 49) (o : Fin 1536) :
    idx_main_v1 (idx_main_v2 (ix3 b n o)) = ix1 o :=
  funext fun a => match a with
    | ⟨0, _⟩ => rfl

/-- The reference's fused projection read at (window b, token n, feature o). -/
theorem qkv_apply (y0 : (⟨S2048x49x512, .f32⟩ : BufTy).Contents (Elt Ideal)) (y2 : (⟨S1536x512, .f32⟩ : BufTy).Contents (Elt Ideal)) (y3 : (⟨S1536, .f32⟩ : BufTy).Contents (Elt Ideal))
    (b : Fin 2048) (n : Fin 49) (o : Fin 1536) :
    val_main_v3 (F := Ideal) y0 y2 y3 (ix3 b n o) = qkv (mat y0 b) (at2 y2) (at1 y3) n o := by
  rw [val_main_v3_apply, Ideal.addf_def, val_main_v0_apply, val_main_v2_apply, val_main_v1_apply, bidx_ix3]
  unfold qkv
  refine congrArg (· + y3 (ix1 o)) ?_
  refine Finset.sum_congr rfl fun k _ => ?_
  rw [lidx_ix3, ridx_ix3]

/-- Position (b, h, n, d) of part 0, read back through the dropped unit axis, the slice at 0, the transposition and
    the split of the feature axis, is position (b, n, feature (0, h, d)) of the fused projection. -/
theorem idx_q (b : Fin 2048) (h : Fin 16) (n : Fin 49) (d : Fin 32) :
    idx_main_v4 (idx_main_v5 (idx_main_v6 (idx_main_v7 (ix4 b h n d)))) = ix3 b n (feat 0 h d) := by
  have hb := b.isLt; have hh := h.isLt; have hn := n.isLt; have hd := d.isLt
  have e0 : ((((b.val * 16 + h.val) * 49 + n.val) * 32 + d.val) / 25088 % 2048) = b.val := by omega
  have e1 : ((((b.val * 16 + h.val) * 49 + n.val) * 32 + d.val) / 32 % 49) = n.val := by omega
  have e3 : ((((b.val * 16 + h.val) * 49 + n.val) * 32 + d.val) / 1568 % 16) = h.val := by omega
  have e4 : ((((b.val * 16 + h.val) * 49 + n.val) * 32 + d.val) % 32) = d.val := by omega
  refine funext fun a => Fin.ext ?_
  match a with
  | ⟨0, _⟩ =>
    show ((((((((b.val * 16 + h.val) * 49 + n.val) * 32 + d.val) / 25088 % 2048) * 49 + ((((b.val * 16 + h.val) * 49 + n.val) * 32 + d.val) / 32 % 49)) * 3 + 0) * 16 + ((((b.val * 16 + h.val) * 49 + n.val) * 32 + d.val) / 1568 % 16)) * 32 + ((((b.val * 16 + h.val) * 49 + n.val) * 32 + d.val) % 32)) / 75264 = b.val
    rw [e0, e1, e3, e4]; clear e0 e1 e3 e4; omega
  | ⟨1, _⟩ =>
    show ((((((((b.val * 16 + h.val) * 49 + n.val) * 32 + d.val) / 25088 % 2048) * 49 + ((((b.val * 16 + h.val) * 49 + n.val) * 32 + d.val) / 32 % 49)) * 3 + 0) * 16 + ((((b.val * 16 + h.val) * 49 + n.val) * 32 + d.val) / 1568 % 16)) * 32 + ((((b.val * 16 + h.val) * 49 + n.val) * 32 + d.val) % 32)) / 1536 % 49 = n.val
    rw [e0, e1, e3, e4]; clear e0 e1 e3 e4; omega
  | ⟨2, _⟩ =>
    show ((((((((b.val * 16 + h.val) * 49 + n.val) * 32 + d.val) / 25088 % 2048) * 49 + ((((b.val * 16 + h.val) * 49 + n.val) * 32 + d.val) / 32 % 49)) * 3 + 0) * 16 + ((((b.val * 16 + h.val) * 49 + n.val) * 32 + d.val) / 1568 % 16)) * 32 + ((((b.val * 16 + h.val) * 49 + n.val) * 32 + d.val) % 32)) % 1536 = (0 * 16 + h.val) * 32 + d.val
    rw [e0, e1, e3, e4]; clear e0 e1 e3 e4; omega

/-- Position (b, h, n, d) of part 1, read back through the dropped unit axis, the slice at 1, the transposition and
    the split of the feature axis, is position (b, n, feature (1, h, d)) of the fused projection. -/
theorem idx_k (b : Fin 2048) (h : Fin 16) (n : Fin 49) (d : Fin 32) :
    idx_main_v4 (idx_main_v5 (idx_main_v8 (idx_main_v9 (ix4 b h n d)))) = ix3 b n (feat 1 h d) := by
  have hb := b.isLt; have hh := h.isLt; have hn := n.isLt; have hd := d.isLt
  have e0 : ((((b.val * 16 + h.val) * 49 + n.val) * 32 + d.val) / 25088 % 2048) = b.val := by omega
  have e1 : ((((b.val * 16 + h.val) * 49 + n.val) * 32 + d.val) / 32 % 49) = n.val := by omega
  have e3 : ((((b.val * 16 + h.val) * 49 + n.val) * 32 + d.val) / 1568 % 16) = h.val := by omega
  have e4 : ((((b.val * 16 + h.val) * 49 + n.val) * 32 + d.val) % 32) = d.val := by omega
  refine funext fun a => Fin.ext ?_
  match a with
  | ⟨0, _⟩ =>
    show ((((((((b.val * 16 + h.val) * 49 + n.val) * 32 + d.val) / 25088 % 2048) * 49 + ((((b.val * 16 + h.val) * 49 + n.val) * 32 + d.val) / 32 % 49)) * 3 + (1 + 0)) * 16 + ((((b.val * 16 + h.val) * 49 + n.val) * 32 + d.val) / 1568 % 16)) * 32 + ((((b.val * 16 + h.val) * 49 + n.val) * 32 + d.val) % 32)) / 75264 = b.val
    rw [e0, e1, e3, e4]; clear e0 e1 e3 e4; omega
  | ⟨1, _⟩ =>
    show ((((((((b.val * 16 + h.val) * 49 + n.val) * 32 + d.val) / 25088 % 2048) * 49 + ((((b.val * 16 + h.val) * 49 + n.val) * 32 + d.val) / 32 % 49)) * 3 + (1 + 0)) * 16 + ((((b.val * 16 + h.val) * 49 + n.val) * 32 + d.val) / 1568 % 16)) * 32 + ((((b.val * 16 + h.val) * 49 + n.val) * 32 + d.val) % 32)) / 1536 % 49 = n.val
    rw [e0, e1, e3, e4]; clear e0 e1 e3 e4; omega
  | ⟨2, _⟩ =>
    show ((((((((b.val * 16 + h.val) * 49 + n.val) * 32 + d.val) / 25088 % 2048) * 49 + ((((b.val * 16 + h.val) * 49 + n.val) * 32 + d.val) / 32 % 49)) * 3 + (1 + 0)) * 16 + ((((b.val * 16 + h.val) * 49 + n.val) * 32 + d.val) / 1568 % 16)) * 32 + ((((b.val * 16 + h.val) * 49 + n.val) * 32 + d.val) % 32)) % 1536 = (1 * 16 + h.val) * 32 + d.val
    rw [e0, e1, e3, e4]; clear e0 e1 e3 e4; omega

/-- Position (b, h, n, d) of part 2, read back through the dropped unit axis, the slice at 2, the transposition and
    the split of the feature axis, is position (b, n, feature (2, h, d)) of the fused projection. -/
theorem idx_v (b : Fin 2048) (h : Fin 16) (n : Fin 49) (d : Fin 32) :
    idx_main_v4 (idx_main_v5 (idx_main_v10 (idx_main_v11 (ix4 b h n d)))) = ix3 b n (feat 2 h d) := by
  have hb := b.isLt; have hh := h.isLt; have hn := n.isLt; have hd := d.isLt
  have e0 : ((((b.val * 16 + h.val) * 49 + n.val) * 32 + d.val) / 25088 % 2048) = b.val := by omega
  have e1 : ((((b.val * 16 + h.val) * 49 + n.val) * 32 + d.val) / 32 % 49) = n.val := by omega
  have e3 : ((((b.val * 16 + h.val) * 49 + n.val) * 32 + d.val) / 1568 % 16) = h.val := by omega
  have e4 : ((((b.val * 16 + h.val) * 49 + n.val) * 32 + d.val) % 32) = d.val := by omega
  refine funext fun a => Fin.ext ?_
  match a with
  | ⟨0, _⟩ =>
    show ((((((((b.val * 16 + h.val) * 49 + n.val) * 32 + d.val) / 25088 % 2048) * 49 + ((((b.val * 16 + h.val) * 49 + n.val) * 32 + d.val) / 32 % 49)) * 3 + (2 + 0)) * 16 + ((((b.val * 16 + h.val) * 49 + n.val) * 32 + d.val) / 1568 % 16)) * 32 + ((((b.val * 16 + h.val) * 49 + n.val) * 32 + d.val) % 32)) / 75264 = b.val
    rw [e0, e1, e3, e4]; clear e0 e1 e3 e4; omega
  | ⟨1, _⟩ =>
    show ((((((((b.val * 16 + h.val) * 49 + n.val) * 32 + d.val) / 25088 % 2048) * 49 + ((((b.val * 16 + h.val) * 49 + n.val) * 32 + d.val) / 32 % 49)) * 3 + (2 + 0)) * 16 + ((((b.val * 16 + h.val) * 49 + n.val) * 32 + d.val) / 1568 % 16)) * 32 + ((((b.val * 16 + h.val) * 49 + n.val) * 32 + d.val) % 32)) / 1536 % 49 = n.val
    rw [e0, e1, e3, e4]; clear e0 e1 e3 e4; omega
  | ⟨2, _⟩ =>
    show ((((((((b.val * 16 + h.val) * 49 + n.val) * 32 + d.val) / 25088 % 2048) * 49 + ((((b.val * 16 + h.val) * 49 + n.val) * 32 + d.val) / 32 % 49)) * 3 + (2 + 0)) * 16 + ((((b.val * 16 + h.val) * 49 + n.val) * 32 + d.val) / 1568 % 16)) * 32 + ((((b.val * 16 + h.val) * 49 + n.val) * 32 + d.val) % 32)) % 1536 = (2 * 16 + h.val) * 32 + d.val
    rw [e0, e1, e3, e4]; clear e0 e1 e3 e4; omega

/-- Its queries, keys and values, split by head: parts 0, 1 and 2 of the fused feature axis. -/
theorem q_apply (y0 : (⟨S2048x49x512, .f32⟩ : BufTy).Contents (Elt Ideal)) (y2 : (⟨S1536x512, .f32⟩ : BufTy).Contents (Elt Ideal)) (y3 : (⟨S1536, .f32⟩ : BufTy).Contents (Elt Ideal))
    (b : Fin 2048) (h : Fin 16) (n : Fin 49) (d : Fin 32) :
    val_main_v7 (F := Ideal) y0 y2 y3 (ix4 b h n d) = qkv (mat y0 b) (at2 y2) (at1 y3) n (feat 0 h d) := by
  rw [val_main_v7_apply, val_main_v6_apply, val_main_v5_apply, val_main_v4_apply, idx_q, qkv_apply]

theorem k_apply (y0 : (⟨S2048x49x512, .f32⟩ : BufTy).Contents (Elt Ideal)) (y2 : (⟨S1536x512, .f32⟩ : BufTy).Contents (Elt Ideal)) (y3 : (⟨S1536, .f32⟩ : BufTy).Contents (Elt Ideal))
    (b : Fin 2048) (h : Fin 16) (n : Fin 49) (d : Fin 32) :
    val_main_v9 (F := Ideal) y0 y2 y3 (ix4 b h n d) = qkv (mat y0 b) (at2 y2) (at1 y3) n (feat 1 h d) := by
  rw [val_main_v9_apply, val_main_v8_apply, val_main_v5_apply, val_main_v4_apply, idx_k, qkv_apply]

theorem v_apply (y0 : (⟨S2048x49x512, .f32⟩ : BufTy).Contents (Elt Ideal)) (y2 : (⟨S1536x512, .f32⟩ : BufTy).Contents (Elt Ideal)) (y3 : (⟨S1536, .f32⟩ : BufTy).Contents (Elt Ideal))
    (b : Fin 2048) (h : Fin 16) (n : Fin 49) (d : Fin 32) :
    val_main_v11 (F := Ideal) y0 y2 y3 (ix4 b h n d) = qkv (mat y0 b) (at2 y2) (at1 y3) n (feat 2 h d) := by
  rw [val_main_v11_apply, val_main_v10_apply, val_main_v5_apply, val_main_v4_apply, idx_v, qkv_apply]

end Cert.WinAttn.R

end
-- ==== Proof.RExp.lean ====
import proofs.«149666_j84679575208277_1_alg».proof.Proof.Gen.ReferenceIdeal.Read
import proofs.«149666_j84679575208277_1_alg».proof.Proof.Views
import Idealize.ShloMosaic.Lib.ValueIdx
import Idealize.ShloMosaic.Lib.ValueLayout
import Idealize.ShloMosaic.Lib.Pipeline.Value
import Idealize.ShloMosaic.PureOps.Ideal.Laws
import proofs.«149666_j84679575208277_1_alg».proof.Proof.RQkv

noncomputable section

namespace Cert.WinAttn.R

open Cert.ReferenceIdeal Cert.ReferenceIdeal.Read Idealize.ShloMosaic Idealize.ShloMosaic.ValueIdx Cert.WinAttn

/-- The scores: the scaled queries against the keys summed over the 32 lanes, plus the bias entry (h, n, m). -/
theorem score_apply (y0 : (⟨S2048x49x512, .f32⟩ : BufTy).Contents (Elt Ideal)) (y1 : (⟨S169x16, .f32⟩ : BufTy).Contents (Elt Ideal)) (y2 : (⟨S1536x512, .f32⟩ : BufTy).Contents (Elt Ideal)) (y3 : (⟨S1536, .f32⟩ : BufTy).Contents (Elt Ideal))
    (y6 : (⟨S49x49, .i32⟩ : BufTy).Contents (Elt Ideal)) (b : Fin 2048) (h : Fin 16) (n m : Fin 49) :
    val_main_v25 (F := Ideal) y0 y1 y2 y3 y6 (ix4 b h n m)
      = score (mat y0 b) (at2 y2) (at1 y3) (at3 (val_main_v19 (F := Ideal) y1 y6)) h n m := by
  rw [val_main_v25_apply, val_main_v23_apply, val_main_v24_apply, val_main_v20_apply]
  unfold score
  rw [Ideal.addf_def]
  congr 1
  · refine Finset.sum_congr rfl fun k _ => ?_
    have el : lidx_main_v23 (ix4 b h n m) k = ix4 b h n k := funext fun a => by
      match a with
      | ⟨0, _⟩ => rfl
      | ⟨1, _⟩ => rfl
      | ⟨2, _⟩ => rfl
      | ⟨3, _⟩ => rfl
    have er : ridx_main_v23 (ix4 b h n m) k = ix4 b h m k := funext fun a => by
      match a with
      | ⟨0, _⟩ => rfl
      | ⟨1, _⟩ => rfl
      | ⟨2, _⟩ => rfl
      | ⟨3, _⟩ => rfl
    rw [el, er, val_main_v22_apply, q_apply, k_apply, val_main_v21_apply, val_main_cst_apply]
    rfl
  · exact congrArg (val_main_v19 (F := Ideal) y1 y6) (funext fun a => by
      match a with
      | ⟨0, _⟩ => rfl
      | ⟨1, _⟩ => rfl
      | ⟨2, _⟩ => rfl)

/-- The maximum over the key axis: the fold of max from −∞ over the 49 scores of row (b, h, n). -/
theorem fold_apply (y0 : (⟨S2048x49x512, .f32⟩ : BufTy).Contents (Elt Ideal)) (y1 : (⟨S169x16, .f32⟩ : BufTy).Contents (Elt Ideal)) (y2 : (⟨S1536x512, .f32⟩ : BufTy).Contents (Elt Ideal)) (y3 : (⟨S1536, .f32⟩ : BufTy).Contents (Elt Ideal))
    (y6 : (⟨S49x49, .i32⟩ : BufTy).Contents (Elt Ideal)) (b : Fin 2048) (h : Fin 16) (n : Fin 49) :
    val_main_v26 (F := Ideal) y0 y1 y2 y3 y6 (ix3 b h n)
      = (Finset.univ : Finset (Fin 49)).fold max negInf
          (fun m => score (mat y0 b) (at2 y2) (at1 y3) (at3 (val_main_v19 (F := Ideal) y1 y6)) h n m) := by
  unfold val_main_v26
  refine (Host.reduce_eq_fold_single FloatOps.maximumf _ _ Gen.reducesTo_S2048x16x49x49_S2048x16x49_d3 (by decide) Gen.h_S_ (ix3 b h n)).trans ?_
  have hf : ((val_main_v25 (F := Ideal) y0 y1 y2 y3 y6 ∘ Shape.Reduces.lift (s := S2048x16x49x49) (a := 3) (t := S2048x16x49) (by decide) (ix3 b h n)) : Fin 49 → EReal)
      = fun m : Fin 49 => score (mat y0 b) (at2 y2) (at1 y3) (at3 (val_main_v19 (F := Ideal) y1 y6)) h n m := funext fun (m : Fin 49) => by
    have e : Shape.Reduces.lift (s := S2048x16x49x49) (a := 3) (t := S2048x16x49) (by decide) (ix3 b h n) m = ix4 b h n m := funext fun a => Fin.ext (by
      match a with
      | ⟨0, _⟩ => rfl
      | ⟨1, _⟩ => rfl
      | ⟨2, _⟩ => rfl
      | ⟨3, _⟩ => rfl)
    show val_main_v25 (F := Ideal) y0 y1 y2 y3 y6 (Shape.Reduces.lift (s := S2048x16x49x49) (a := 3) (t := S2048x16x49) (by decide) (ix3 b h n) m) = _
    rw [e, score_apply]
  exact congrArg (fun g => (Finset.univ : Finset (Fin 49)).fold max negInf g) hf

/-- The row maximum the softmax subtracts, as the reference computes it: max of −∞ and the fold. -/
theorem rowMax_apply (y0 : (⟨S2048x49x512, .f32⟩ : BufTy).Contents (Elt Ideal)) (y1 : (⟨S169x16, .f32⟩ : BufTy).Contents (Elt Ideal)) (y2 : (⟨S1536x512, .f32⟩ : BufTy).Contents (Elt Ideal)) (y3 : (⟨S1536, .f32⟩ : BufTy).Contents (Elt Ideal))
    (y6 : (⟨S49x49, .i32⟩ : BufTy).Contents (Elt Ideal)) (b : Fin 2048) (h : Fin 16) (n : Fin 49) :
    val_main_v28 (F := Ideal) y0 y1 y2 y3 y6 (ix3 b h n)
      = rowMax (mat y0 b) (at2 y2) (at1 y3) (at3 (val_main_v19 (F := Ideal) y1 y6)) h n := by
  rw [val_main_v28_apply, val_main_v27_apply, val_main_cst_2_apply, fold_apply]
  rfl

/-- The reference's softmax numerators at (window b, head h, query n, key m); the bias is its own gathered and
    transposed table, carried whole. -/
theorem expo_apply (y0 : (⟨S2048x49x512, .f32⟩ : BufTy).Contents (Elt Ideal)) (y1 : (⟨S169x16, .f32⟩ : BufTy).Contents (Elt Ideal)) (y2 : (⟨S1536x512, .f32⟩ : BufTy).Contents (Elt Ideal)) (y3 : (⟨S1536, .f32⟩ : BufTy).Contents (Elt Ideal))
    (y6 : (⟨S49x49, .i32⟩ : BufTy).Contents (Elt Ideal)) (b : Fin 2048) (h : Fin 16) (n m : Fin 49) :
    val_main_v32 (F := Ideal) y0 y1 y2 y3 y6 (ix4 b h n m)
      = expo (mat y0 b) (at2 y2) (at1 y3) (at3 (val_main_v19 (F := Ideal) y1 y6)) h n m := by
  rw [val_main_v32_apply, val_main_v31_apply, val_main_v30_apply, val_main_v29_apply]
  have e : idx_main_v29 (idx_main_v30 (ix4 b h n m)) = ix3 b h n := funext fun a => by
    match a with
    | ⟨0, _⟩ => rfl
    | ⟨1, _⟩ => rfl
    | ⟨2, _⟩ => rfl
  rw [e, score_apply, rowMax_apply]
  rfl

end Cert.WinAttn.R

end
-- ==== Proof.ROut.lean ====
import proofs.«149666_j84679575208277_1_alg».proof.Proof.Gen.ReferenceIdeal.Read
import proofs.«149666_j84679575208277_1_alg».proof.Proof.Views
import Idealize.ShloMosaic.Lib.ValueIdx
import Idealize.ShloMosaic.Lib.ValueLayout
import Idealize.ShloMosaic.Lib.Pipeline.Value
import Idealize.ShloMosaic.PureOps.Ideal.Laws

noncomputable section

namespace Cert.WinAttn.R

open Cert.ReferenceIdeal Cert.ReferenceIdeal.Read Idealize.ShloMosaic Idealize.ShloMosaic.ValueIdx Cert.WinAttn

/-- The row sum of the numerators: the zero word plus the sum over the 49 keys. -/
theorem v33_at (y0 : (⟨S2048x49x512, .f32⟩ : BufTy).Contents (Elt Ideal)) (y1 : (⟨S169x16, .f32⟩ : BufTy).Contents (Elt Ideal)) (y2 : (⟨S1536x512, .f32⟩ : BufTy).Contents (Elt Ideal)) (y3 : (⟨S1536, .f32⟩ : BufTy).Contents (Elt Ideal)) (y6 : (⟨S49x49, .i32⟩ : BufTy).Contents (Elt Ideal)) (b : Fin 2048) (h : Fin 16) (n : Fin 49) :
    val_main_v33 (F := Ideal) y0 y1 y2 y3 y6 (ix3 b h n)
      = ∑ m : Fin 49, val_main_v32 (F := Ideal) y0 y1 y2 y3 y6 (ix4 b h n m) := by
  refine (val_main_v33_apply y0 y1 y2 y3 y6 (ix3 b h n)).trans ?_
  rw [val_main_cst_3_apply]
  show Ideal.ofBits .f32 0x00000000#32 + _ = _
  rw [Ideal.ofBits_zero_f32, zero_add]
  refine Finset.sum_congr rfl fun m _ => congrArg _ ?_
  exact funext fun a => Fin.ext (by match a with | ⟨0, _⟩ => rfl | ⟨1, _⟩ => rfl | ⟨2, _⟩ => rfl | ⟨3, _⟩ => rfl)

/-- The row sum broadcast back along the key axis. -/
theorem v35_at (y0 : (⟨S2048x49x512, .f32⟩ : BufTy).Contents (Elt Ideal)) (y1 : (⟨S169x16, .f32⟩ : BufTy).Contents (Elt Ideal)) (y2 : (⟨S1536x512, .f32⟩ : BufTy).Contents (Elt Ideal)) (y3 : (⟨S1536, .f32⟩ : BufTy).Contents (Elt Ideal)) (y6 : (⟨S49x49, .i32⟩ : BufTy).Contents (Elt Ideal)) (b : Fin 2048) (h : Fin 16) (n m : Fin 49) :
    val_main_v35 (F := Ideal) y0 y1 y2 y3 y6 (ix4 b h n m)
      = ∑ m' : Fin 49, val_main_v32 (F := Ideal) y0 y1 y2 y3 y6 (ix4 b h n m') := by
  refine (val_main_v35_apply y0 y1 y2 y3 y6 (ix4 b h n m)).trans ?_
  refine (val_main_v34_apply y0 y1 y2 y3 y6 _).trans ?_
  refine Eq.trans (congrArg _ ?_) (v33_at y0 y1 y2 y3 y6 b h n)
  exact funext fun a => Fin.ext (by match a with | ⟨0, _⟩ => rfl | ⟨1, _⟩ => rfl | ⟨2, _⟩ => rfl)

/-- The attention weight: the numerator over its row sum. -/
theorem v36_at (y0 : (⟨S2048x49x512, .f32⟩ : BufTy).Contents (Elt Ideal)) (y1 : (⟨S169x16, .f32⟩ : BufTy).Contents (Elt Ideal)) (y2 : (⟨S1536x512, .f32⟩ : BufTy).Contents (Elt Ideal)) (y3 : (⟨S1536, .f32⟩ : BufTy).Contents (Elt Ideal)) (y6 : (⟨S49x49, .i32⟩ : BufTy).Contents (Elt Ideal)) (b : Fin 2048) (h : Fin 16) (n m : Fin 49) :
    val_main_v36 (F := Ideal) y0 y1 y2 y3 y6 (ix4 b h n m)
      = Ideal.div (val_main_v32 (F := Ideal) y0 y1 y2 y3 y6 (ix4 b h n m))
          (∑ m' : Fin 49, val_main_v32 (F := Ideal) y0 y1 y2 y3 y6 (ix4 b h n m')) := by
  refine (val_main_v36_apply y0 y1 y2 y3 y6 (ix4 b h n m)).trans ?_
  rw [Ideal.hostDivf_def, v35_at]

/-- The context vector: the weights against the values over the 49 keys. -/
theorem v37_at (y0 : (⟨S2048x49x512, .f32⟩ : BufTy).Contents (Elt Ideal)) (y1 : (⟨S169x16, .f32⟩ : BufTy).Contents (Elt Ideal)) (y2 : (⟨S1536x512, .f32⟩ : BufTy).Contents (Elt Ideal)) (y3 : (⟨S1536, .f32⟩ : BufTy).Contents (Elt Ideal)) (y6 : (⟨S49x49, .i32⟩ : BufTy).Contents (Elt Ideal)) (b : Fin 2048) (h : Fin 16) (n : Fin 49) (d : Fin 32) :
    val_main_v37 (F := Ideal) y0 y1 y2 y3 y6 (ix4 b h n d)
      = ∑ m : Fin 49, Ideal.div (val_main_v32 (F := Ideal) y0 y1 y2 y3 y6 (ix4 b h n m))
            (∑ m' : Fin 49, val_main_v32 (F := Ideal) y0 y1 y2 y3 y6 (ix4 b h n m'))
          * val_main_v11 (F := Ideal) y0 y2 y3 (ix4 b h m d) := by
  refine (val_main_v37_apply y0 y1 y2 y3 y6 (ix4 b h n d)).trans ?_
  refine Finset.sum_congr rfl fun m _ => ?_
  have el : lidx_main_v37 (ix4 b h n d) m = ix4 b h n m :=
    funext fun a => Fin.ext (by match a with | ⟨0, _⟩ => rfl | ⟨1, _⟩ => rfl | ⟨2, _⟩ => rfl | ⟨3, _⟩ => rfl)
  have er : ridx_main_v37 (ix4 b h n d) m = ix4 b h m d :=
    funext fun a => Fin.ext (by match a with | ⟨0, _⟩ => rfl | ⟨1, _⟩ => rfl | ⟨2, _⟩ => rfl | ⟨3, _⟩ => rfl)
  rw [el, er, v36_at]

/-- The heads laid side by side: channel k of token n is head k / 32, lane k % 32. -/
theorem v39_at (y0 : (⟨S2048x49x512, .f32⟩ : BufTy).Contents (Elt Ideal)) (y1 : (⟨S169x16, .f32⟩ : BufTy).Contents (Elt Ideal)) (y2 : (⟨S1536x512, .f32⟩ : BufTy).Contents (Elt Ideal)) (y3 : (⟨S1536, .f32⟩ : BufTy).Contents (Elt Ideal)) (y6 : (⟨S49x49, .i32⟩ : BufTy).Contents (Elt Ideal)) (b : Fin 2048) (n : Fin 49) (k : Fin 512) :
    val_main_v39 (F := Ideal) y0 y1 y2 y3 y6 (ix3 b n k)
      = val_main_v37 (F := Ideal) y0 y1 y2 y3 y6 (ix4 b (headOf k) n (laneOf k)) := by
  refine (val_main_v39_apply y0 y1 y2 y3 y6 (ix3 b n k)).trans ?_
  refine (val_main_v38_apply y0 y1 y2 y3 y6 _).trans ?_
  refine congrArg _ ?_
  have hb := b.isLt; have hn := n.isLt; have hk := k.isLt
  exact funext fun a => Fin.ext (by
    match a with
    | ⟨0, _⟩ => show ((b.val * 49 + n.val) * 512 + k.val) / 25088 = b.val; omega
    | ⟨1, _⟩ => show ((b.val * 49 + n.val) * 512 + k.val) / 32 % 16 = k.val / 32; omega
    | ⟨2, _⟩ => show ((b.val * 49 + n.val) * 512 + k.val) / 512 % 49 = n.val; omega
    | ⟨3, _⟩ => show ((b.val * 49 + n.val) * 512 + k.val) % 32 = k.val % 32; omega)

/-- The bias broadcast over windows and tokens. -/
theorem v42_at (y5 : (⟨S512, .f32⟩ : BufTy).Contents (Elt Ideal)) (b : Fin 2048) (n : Fin 49) (c : Fin 512) :
    val_main_v42 (F := Ideal) y5 (ix3 b n c) = y5 (ix1 c) := by
  refine (val_main_v42_apply y5 (ix3 b n c)).trans ?_
  refine (val_main_v41_apply y5 _).trans ?_
  refine congrArg _ ?_
  exact funext fun a => Fin.ext (by match a with | ⟨0, _⟩ => rfl)

/-- The projection: the 512 context channels against row c of the weight. -/
theorem v40_at (y0 : (⟨S2048x49x512, .f32⟩ : BufTy).Contents (Elt Ideal)) (y1 : (⟨S169x16, .f32⟩ : BufTy).Contents (Elt Ideal)) (y2 : (⟨S1536x512, .f32⟩ : BufTy).Contents (Elt Ideal)) (y3 : (⟨S1536, .f32⟩ : BufTy).Contents (Elt Ideal)) (y6 : (⟨S49x49, .i32⟩ : BufTy).Contents (Elt Ideal)) (y4 : (⟨S512x512, .f32⟩ : BufTy).Contents (Elt Ideal)) (b : Fin 2048) (n : Fin 49) (c : Fin 512) :
    val_main_v40 (F := Ideal) y0 y1 y2 y3 y4 y6 (ix3 b n c)
      = ∑ k : Fin 512, val_main_v39 (F := Ideal) y0 y1 y2 y3 y6 (ix3 b n k) * y4 (ix2 c k) := by
  refine (val_main_v40_apply y0 y1 y2 y3 y4 y6 (ix3 b n c)).trans ?_
  refine Finset.sum_congr rfl fun k _ => ?_
  have el : lidx_main_v40 (ix3 b n c) k = ix3 b n k :=
    funext fun a => Fin.ext (by match a with | ⟨0, _⟩ => rfl | ⟨1, _⟩ => rfl | ⟨2, _⟩ => rfl)
  have er : ridx_main_v40 (ix3 b n c) k = ix2 c k :=
    funext fun a => Fin.ext (by match a with | ⟨0, _⟩ => rfl | ⟨1, _⟩ => rfl)
  rw [el, er]

/-- From the numerators and the values onward: normalise, multiply, lay the heads side by side, project. -/
theorem out_apply (y0 : (⟨S2048x49x512, .f32⟩ : BufTy).Contents (Elt Ideal)) (y1 : (⟨S169x16, .f32⟩ : BufTy).Contents (Elt Ideal)) (y2 : (⟨S1536x512, .f32⟩ : BufTy).Contents (Elt Ideal)) (y3 : (⟨S1536, .f32⟩ : BufTy).Contents (Elt Ideal))
    (y4 : (⟨S512x512, .f32⟩ : BufTy).Contents (Elt Ideal)) (y5 : (⟨S512, .f32⟩ : BufTy).Contents (Elt Ideal)) (y6 : (⟨S49x49, .i32⟩ : BufTy).Contents (Elt Ideal)) (b : Fin 2048) (n : Fin 49) (c : Fin 512) :
    val_main_v43 (F := Ideal) y0 y1 y2 y3 y4 y5 y6 (ix3 b n c)
      = (∑ k : Fin 512, (∑ m : Fin 49, Ideal.div (val_main_v32 (F := Ideal) y0 y1 y2 y3 y6 (ix4 b (headOf k) n m))
              (∑ m' : Fin 49, val_main_v32 (F := Ideal) y0 y1 y2 y3 y6 (ix4 b (headOf k) n m'))
            * val_main_v11 (F := Ideal) y0 y2 y3 (ix4 b (headOf k) m (laneOf k))) * y4 (ix2 c k)) + y5 (ix1 c) := by
  refine (val_main_v43_apply y0 y1 y2 y3 y4 y5 y6 (ix3 b n c)).trans ?_
  rw [Ideal.addf_def, v42_at, v40_at]
  refine congrArg (· + _) (Finset.sum_congr rfl fun k _ => ?_)
  rw [v39_at, v37_at]

end Cert.WinAttn.R

end
-- ==== Proof.RAll.lean ====
import proofs.«149666_j84679575208277_1_alg».proof.Proof.Gen.ReferenceIdeal.Read
import proofs.«149666_j84679575208277_1_alg».proof.Proof.Views
import Idealize.ShloMosaic.Lib.ValueIdx
import Idealize.ShloMosaic.Lib.ValueLayout
import Idealize.ShloMosaic.Lib.Pipeline.Value
import Idealize.ShloMosaic.PureOps.Ideal.Laws
import proofs.«149666_j84679575208277_1_alg».proof.Proof.RExp
import proofs.«149666_j84679575208277_1_alg».proof.Proof.ROut

noncomputable section

namespace Cert.WinAttn.R

open Cert.ReferenceIdeal Cert.ReferenceIdeal.Read Idealize.ShloMosaic Idealize.ShloMosaic.ValueIdx Cert.WinAttn

/-- The reference's result is, window by window, the attention of that window. -/
theorem ref_apply (y0 : (⟨S2048x49x512, .f32⟩ : BufTy).Contents (Elt Ideal)) (y1 : (⟨S169x16, .f32⟩ : BufTy).Contents (Elt Ideal)) (y2 : (⟨S1536x512, .f32⟩ : BufTy).Contents (Elt Ideal)) (y3 : (⟨S1536, .f32⟩ : BufTy).Contents (Elt Ideal))
    (y4 : (⟨S512x512, .f32⟩ : BufTy).Contents (Elt Ideal)) (y5 : (⟨S512, .f32⟩ : BufTy).Contents (Elt Ideal)) (y6 : (⟨S49x49, .i32⟩ : BufTy).Contents (Elt Ideal)) (b : Fin 2048) (n : Fin 49) (c : Fin 512) :
    val_main_v43 (F := Ideal) y0 y1 y2 y3 y4 y5 y6 (ix3 b n c)
      = attn (mat y0 b) (at2 y2) (at1 y3) (at2 y4) (at1 y5) (at3 (val_main_v19 (F := Ideal) y1 y6)) n c := by
  rw [out_apply]
  unfold attn ctx prob denom
  simp only [expo_apply, v_apply]

end Cert.WinAttn.R

end
-- ==== Proof.lean ====
/-
  Window attention with a relative position bias: a kernel that handles eight windows per grid point against a
  plain array program over all 2048 windows.

  Both programs compute, for every window b, token n and output channel c,

      out[b, n, c] = Σ_k ctx[b, n, k] · w_proj[c, k] + b_proj[c],
      ctx[b, n, (h, d)] = Σ_m softmax_m(score[b, h, n, ·])[m] · v[b, h, m, d],
      score[b, h, n, m] = Σ_d (q[b, h, n, d] · scale) · k[b, h, m, d] + bias[h, n, m],

  with q, k, v the three parts of the fused projection x · w_qkvᵀ + b_qkv, the scale the same f32 word on both
  sides, the softmax the same five steps (row maximum from −∞, subtract, exponential, row sum, quotient), and the bias
  the same host operations on the position table and the index array. Over the extended reals a change of float
  format is the identity and a matrix product is the plain sum over its contraction index, so window by window the
  two sides are one function of that window's tokens and of the parameters (`Cert.WinAttn.attn`); no law of
  arithmetic beyond that is used, and finiteness of the inputs is not needed. The kernel's 256 blocks of eight
  windows tile the result array (`Cert.WinAttn.Blocks`); the reference is read stage by stage (`Cert.WinAttn.R`).
-/
import proofs.«149666_j84679575208277_1_alg».proof.Defs
import proofs.«149666_j84679575208277_1_alg».proof.Proof.Gen.Kernel
import proofs.«149666_j84679575208277_1_alg».proof.Proof.Gen.Kernel.Skeleton
import proofs.«149666_j84679575208277_1_alg».proof.Proof.Gen.Kernel.Launch
import proofs.«149666_j84679575208277_1_alg».proof.Proof.Gen.Kernel.Points
import proofs.«149666_j84679575208277_1_alg».proof.Proof.Gen.Kernel.Frame
import proofs.«149666_j84679575208277_1_alg».proof.Proof.Gen.KernelIdeal
import proofs.«149666_j84679575208277_1_alg».proof.Proof.Gen.KernelIdeal.Skeleton
import proofs.«149666_j84679575208277_1_alg».proof.Proof.Gen.KernelIdeal.Launch
import proofs.«149666_j84679575208277_1_alg».proof.Proof.Gen.KernelIdeal.Points
import proofs.«149666_j84679575208277_1_alg».proof.Proof.Gen.KernelIdeal.Frame
import proofs.«149666_j84679575208277_1_alg».proof.Proof.Gen.ReferenceIdeal
import proofs.«149666_j84679575208277_1_alg».proof.Proof.Gen.Pre_finite_inputs
import proofs.«149666_j84679575208277_1_alg».proof.Proof.Gen.KernelIdeal.Value
import proofs.«149666_j84679575208277_1_alg».proof.Proof.Gen.ReferenceIdeal.Run
import proofs.«149666_j84679575208277_1_alg».proof.Proof.Gen.ReferenceIdeal.Read
import proofs.«149666_j84679575208277_1_alg».proof.Proof.Blocks
import proofs.«149666_j84679575208277_1_alg».proof.Proof.RAll
import Idealize.ShloMosaic.Adequacy
import Idealize.ShloMosaic.Init

noncomputable section

namespace Cert.Proof

open Idealize.ShloMosaic Idealize.SL.Sem Idealize.ShloMosaic.ValueIdx

/-- The reference's gathered and transposed bias is the bias the kernel's program prepares before its region:
    the same operations on the same two operands. -/
theorem bias_eq (x1 : (⟨Cert.ReferenceIdeal.S169x16, .f32⟩ : BufTy).Contents (Elt Ideal))
    (x6 : (⟨Cert.ReferenceIdeal.S49x49, .i32⟩ : BufTy).Contents (Elt Ideal)) :
    Cert.ReferenceIdeal.Read.val_main_v19 (F := Ideal) x1 x6 = Cert.WinAttn.Blocks.biasOf x1 x6 := rfl

/-- The reference's result array is the attention of every window: the function the kernel's blocks tile. -/
theorem ref_eq (y0 : (⟨Cert.ReferenceIdeal.S2048x49x512, .f32⟩ : BufTy).Contents (Elt Ideal))
    (y1 : (⟨Cert.ReferenceIdeal.S169x16, .f32⟩ : BufTy).Contents (Elt Ideal))
    (y2 : (⟨Cert.ReferenceIdeal.S1536x512, .f32⟩ : BufTy).Contents (Elt Ideal))
    (y3 : (⟨Cert.ReferenceIdeal.S1536, .f32⟩ : BufTy).Contents (Elt Ideal))
    (y4 : (⟨Cert.ReferenceIdeal.S512x512, .f32⟩ : BufTy).Contents (Elt Ideal))
    (y5 : (⟨Cert.ReferenceIdeal.S512, .f32⟩ : BufTy).Contents (Elt Ideal))
    (y6 : (⟨Cert.ReferenceIdeal.S49x49, .i32⟩ : BufTy).Contents (Elt Ideal)) :
    Cert.ReferenceIdeal.Read.val_main_v43 (F := Ideal) y0 y1 y2 y3 y4 y5 y6
      = Cert.WinAttn.Blocks.attnAll y0 y2 y3 y4 y5 (Cert.WinAttn.Blocks.biasOf y1 y6) := by
  funext i
  obtain ⟨b, n, c, rfl⟩ : ∃ (b : Fin 2048) (n : Fin 49) (c : Fin 512), i = ix3 b n c := ⟨i 0, i 1, i 2, eq_ix3 i⟩
  rw [Cert.WinAttn.R.ref_apply, Cert.WinAttn.Blocks.attnAll_ix3, bias_eq]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the result array at the attention of
    every window of the token argument. -/
theorem algebraic : Cert.algebraic_KernelIdeal_ReferenceIdeal := by
  intro m ρ m' ρ' _ hagree
  refine ⟨_, Cert.WinAttn.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v43_eq, ref_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
